-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S3x128 .f32) (main_arg6 : FVec F S128x64 .f32) (main_arg7 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S3x128x128 .f32) (main_arg5 : FVec F S3x128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S5000x128 : Shape := ⟨2, ![5000, 128]⟩
abbrev S1x128x128 : Shape := ⟨3, ![1, 128, 128]⟩
abbrev S5000x1 : Shape := ⟨2, ![5000, 1]⟩
abbrev S800000x128 : Shape := ⟨2, ![800000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 126
  | .vmem => 60
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S50000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S_, .f32⟩
  | .hbm, ⟨23, _⟩ => ⟨S800000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S50000, .f32⟩
  | .hbm, ⟨49, _⟩ => ⟨S50000x1, .f32⟩
  | .hbm, ⟨50, _⟩ => ⟨S1x128, .f32⟩
  | .hbm, ⟨51, _⟩ => ⟨S50000x128, .f32⟩
  | .hbm, ⟨52, _⟩ => ⟨S1x128x128, .f32⟩
  | .hbm, ⟨53, _⟩ => ⟨S128x128, .f32⟩
  | .hbm, ⟨54, _⟩ => ⟨S1x128, .f32⟩
  | .hbm, ⟨55, _⟩ => ⟨S128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S800000x1, .f32⟩
  | .hbm, ⟨69, _⟩ => ⟨S800000x128, .f32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S50000x128, .f32⟩
  | .hbm, ⟨76, _⟩ => ⟨S1x128x128, .f32⟩
  | .hbm, ⟨77, _⟩ => ⟨S128x128, .f32⟩
  | .hbm, ⟨78, _⟩ => ⟨S1x128, .f32⟩
  | .hbm, ⟨79, _⟩ => ⟨S128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S800000x1, .f32⟩
  | .hbm, ⟨93, _⟩ => ⟨S800000x128, .f32⟩
  | .hbm, ⟨94, _⟩ => ⟨S800000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .hbm, ⟨99, _⟩ => ⟨S50000x128, .f32⟩
  | .hbm, ⟨100, _⟩ => ⟨S1x128x128, .f32⟩
  | .hbm, ⟨101, _⟩ => ⟨S128x128, .f32⟩
  | .hbm, ⟨102, _⟩ => ⟨S1x128, .f32⟩
  | .hbm, ⟨103, _⟩ => ⟨S128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S_, .i32⟩
  | .hbm, ⟨108, _⟩ => ⟨S800000, .i32⟩
  | .hbm, ⟨109, _⟩ => ⟨S800000, .i1⟩
  | .hbm, ⟨110, _⟩ => ⟨S_, .i32⟩
  | .hbm, ⟨111, _⟩ => ⟨S800000, .i32⟩
  | .hbm, ⟨112, _⟩ => ⟨S800000, .i32⟩
  | .hbm, ⟨113, _⟩ => ⟨S800000, .i32⟩
  | .hbm, ⟨114, _⟩ => ⟨S800000x1, .i32⟩
  | .hbm, ⟨115, _⟩ => ⟨S800000x128, .f32⟩
  | .hbm, ⟨116, _⟩ => ⟨S800000x1, .f32⟩
  | .hbm, ⟨117, _⟩ => ⟨S800000x128, .f32⟩
  | .hbm, ⟨118, _⟩ => ⟨S800000x128, .f32⟩
  | .hbm, ⟨119, _⟩ => ⟨S_, .f32⟩
  | .hbm, ⟨120, _⟩ => ⟨S50000x128, .f32⟩
  | .hbm, ⟨121, _⟩ => ⟨S800000x1, .i32⟩
  | .hbm, ⟨122, _⟩ => ⟨S50000x128, .f32⟩
  | .hbm, ⟨123, _⟩ => ⟨S50000x128, .f32⟩
  | .hbm, ⟨124, _⟩ => ⟨S1x64, .f32⟩
  | .hbm, ⟨125, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x1, .f32⟩
  | .local _ .vmem, ⟨42, _⟩ => ⟨S5000x1, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40_0 : Ref sig .tc := ⟨.hbm, 57, rfl⟩
abbrev main_v40_1 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60_0 : Ref sig .tc := ⟨.hbm, 81, rfl⟩
abbrev main_v60_1 : Ref sig .tc := ⟨.hbm, 82, rfl⟩
abbrev main_c_10 : Ref sig .tc := ⟨.hbm, 83, rfl⟩
abbrev main_v61 : Ref sig .tc := ⟨.hbm, 84, rfl⟩
abbrev main_v62 : Ref sig .tc := ⟨.hbm, 85, rfl⟩
abbrev main_c_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80_0 : Ref sig .tc := ⟨.hbm, 105, rfl⟩
abbrev main_v80_1 : Ref sig .tc := ⟨.hbm, 106, rfl⟩
abbrev main_c_13 : Ref sig .tc := ⟨.hbm, 107, rfl⟩
abbrev main_v81 : Ref sig .tc := ⟨.hbm, 108, rfl⟩
abbrev main_v82 : Ref sig .tc := ⟨.hbm, 109, rfl⟩
abbrev main_c_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_15 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem4_1 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem3_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S50000x64.size a
  hwx7_3 : ∀ i : grid7.Coords, EltTy.bits .f32 = 32 ∨ (Rect.block (s := S50000x64) S5000x64.size (cc7_transform_3 i) (hinb7_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v40_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40_1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v60_1) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v73) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60_1) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v74) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v32) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v79) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80_0) S5000x128.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v80_1) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v93) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v80_1) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v94) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v94) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg6) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v96) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S1x128x128 : Shape := ⟨3, ![1, 128, 128]⟩
abbrev S800000x128 : Shape := ⟨2, ![800000, 128]⟩
abbrev S50000x64 : Shape := ⟨2, ![50000, 64]⟩
abbrev S1x64 : Shape := ⟨2, ![1, 64]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S3x128x128, .f32⟩
  | 5 => ⟨S3x128, .f32⟩
  | 6 => ⟨S128x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S50000, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S_, .f32⟩
  | 23 => ⟨S800000, .f32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S50000, .f32⟩
  | 49 => ⟨S50000x1, .f32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S1x128x128, .f32⟩
  | 58 => ⟨S128x128, .f32⟩
  | 59 => ⟨S50000x128, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S800000x1, .f32⟩
  | 70 => ⟨S800000x128, .f32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S50000x128, .f32⟩
  | 77 => ⟨S50000x128, .f32⟩
  | 78 => ⟨S50000x128, .f32⟩
  | 79 => ⟨S1x128, .f32⟩
  | 80 => ⟨S128, .f32⟩
  | 81 => ⟨S1x128, .f32⟩
  | 82 => ⟨S50000x128, .f32⟩
  | 83 => ⟨S50000x128, .f32⟩
  | 84 => ⟨S1x128x128, .f32⟩
  | 85 => ⟨S128x128, .f32⟩
  | 86 => ⟨S50000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S800000x1, .f32⟩
  | 97 => ⟨S800000x128, .f32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S50000x128, .f32⟩
  | 104 => ⟨S50000x128, .f32⟩
  | 105 => ⟨S50000x128, .f32⟩
  | 106 => ⟨S1x128, .f32⟩
  | 107 => ⟨S128, .f32⟩
  | 108 => ⟨S1x128, .f32⟩
  | 109 => ⟨S50000x128, .f32⟩
  | 110 => ⟨S50000x128, .f32⟩
  | 111 => ⟨S1x128x128, .f32⟩
  | 112 => ⟨S128x128, .f32⟩
  | 113 => ⟨S50000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S800000x1, .f32⟩
  | 124 => ⟨S800000x128, .f32⟩
  | 125 => ⟨S800000x128, .f32⟩
  | 126 => ⟨S_, .f32⟩
  | 127 => ⟨S50000x128, .f32⟩
  | _ => ⟨S50000x128, .f32⟩

abbrev hbmTy0_1 (i : Nat) : BufTy := match i % 128 with
  | 0 => ⟨S800000x1, .i32⟩
  | 1 => ⟨S50000x128, .f32⟩
  | 2 => ⟨S50000x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S50000x64, .f32⟩
  | 11 => ⟨S1x64, .f32⟩
  | 12 => ⟨S50000x64, .f32⟩
  | 13 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_10 : Ref sig .tc := ⟨.hbm, 87, rfl⟩
abbrev main_v65 : Ref sig .tc := ⟨.hbm, 88, rfl⟩
abbrev main_v66 : Ref sig .tc := ⟨.hbm, 89, rfl⟩
abbrev main_c_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_13 : Ref sig .tc := ⟨.hbm, 114, rfl⟩
abbrev main_v89 : Ref sig .tc := ⟨.hbm, 115, rfl⟩
abbrev main_v90 : Ref sig .tc := ⟨.hbm, 116, rfl⟩
abbrev main_c_14 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_15 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Keep.lean ====
/- Which buffers each stretch of host operations writes, and that every other buffer passes through a stretch
  unchanged. Between two pallas_calls the program runs a stretch of host operations; each operation writes exactly
  one buffer, so a buffer outside the stretch's written list holds after the stretch what it held before. With the
  facts that a region changes only its own output arrays, this carries a value computed early (the edge lists, the
  edge and node scales, the argument arrays) to the later places that read it. -/
import proofs.«415000_j23407571763562_3_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers the operations of stretch 0 write, in order. -/
abbrev written0 : List (Ref sig .tc) := [main_v0, main_v1, main_v2, main_v3, main_cst, main_v4, main_c, main_v5, main_v6, main_c_0, main_v7, main_v8, main_v9, main_v10, main_cst_1, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_v31, main_v32, main_v33]
theorem writes0 : (hostOps0 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 0 does not write holds after it what it held before. -/
theorem host0 (c : Dev nD) (r : Ref sig .tc) (h : r ∉ written0) : W1 m ρ c (Proc.devRef .tc r) = W0 m ρ c (Proc.devRef .tc r) :=
  StableHlo.after_of_writes_sub hostOps0 _ writes0 h

/-- The buffers the operations of stretch 1 write, in order. -/
abbrev written1 : List (Ref sig .tc) := [main_v35, main_v36, main_v37, main_v38, main_v39]
theorem writes1 : (hostOps1 : List (HloOp τ sig (Elt F))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 1 does not write holds after it what it held before. -/
theorem host1 (c : Dev nD) (r : Ref sig .tc) (h : r ∉ written1) : W3 m ρ c (Proc.devRef .tc r) = W2 m ρ c (Proc.devRef .tc r) :=
  StableHlo.after_of_writes_sub hostOps1 _ writes1 h

/-- The buffers the operations of stretch 2 write, in order. -/
abbrev written2 : List (Ref sig .tc) := [main_c_7, main_v41, main_v42, main_c_8, main_v43, main_v44, main_v45, main_v46, main_v47, main_v48, main_v49, main_v50, main_cst_9, main_v51, main_v52, main_v53]
theorem writes2 : (hostOps2 : List (HloOp τ sig (Elt F))).Forall fun op => op.writes ⊆ (written2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 2 does not write holds after it what it held before. -/
theorem host2 (c : Dev nD) (r : Ref sig .tc) (h : r ∉ written2) : W5 m ρ c (Proc.devRef .tc r) = W4 m ρ c (Proc.devRef .tc r) :=
  StableHlo.after_of_writes_sub hostOps2 _ writes2 h

/-- The buffers the operations of stretch 3 write, in order. -/
abbrev written3 : List (Ref sig .tc) := [main_v55, main_v56, main_v57, main_v58, main_v59]
theorem writes3 : (hostOps3 : List (HloOp τ sig (Elt F))).Forall fun op => op.writes ⊆ (written3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 3 does not write holds after it what it held before. -/
theorem host3 (c : Dev nD) (r : Ref sig .tc) (h : r ∉ written3) : W7 m ρ c (Proc.devRef .tc r) = W6 m ρ c (Proc.devRef .tc r) :=
  StableHlo.after_of_writes_sub hostOps3 _ writes3 h

/-- The buffers the operations of stretch 4 write, in order. -/
abbrev written4 : List (Ref sig .tc) := [main_c_10, main_v61, main_v62, main_c_11, main_v63, main_v64, main_v65, main_v66, main_v67, main_v68, main_v69, main_v70, main_cst_12, main_v71, main_v72, main_v73]
theorem writes4 : (hostOps4 : List (HloOp τ sig (Elt F))).Forall fun op => op.writes ⊆ (written4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 4 does not write holds after it what it held before. -/
theorem host4 (c : Dev nD) (r : Ref sig .tc) (h : r ∉ written4) : W9 m ρ c (Proc.devRef .tc r) = W8 m ρ c (Proc.devRef .tc r) :=
  StableHlo.after_of_writes_sub hostOps4 _ writes4 h

/-- The buffers the operations of stretch 5 write, in order. -/
abbrev written5 : List (Ref sig .tc) := [main_v75, main_v76, main_v77, main_v78, main_v79]
theorem writes5 : (hostOps5 : List (HloOp τ sig (Elt F))).Forall fun op => op.writes ⊆ (written5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 5 does not write holds after it what it held before. -/
theorem host5 (c : Dev nD) (r : Ref sig .tc) (h : r ∉ written5) : W11 m ρ c (Proc.devRef .tc r) = W10 m ρ c (Proc.devRef .tc r) :=
  StableHlo.after_of_writes_sub hostOps5 _ writes5 h

/-- The buffers the operations of stretch 6 write, in order. -/
abbrev written6 : List (Ref sig .tc) := [main_c_13, main_v81, main_v82, main_c_14, main_v83, main_v84, main_v85, main_v86, main_v87, main_v88, main_v89, main_v90, main_cst_15, main_v91, main_v92, main_v93]
theorem writes6 : (hostOps6 : List (HloOp τ sig (Elt F))).Forall fun op => op.writes ⊆ (written6.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 6 does not write holds after it what it held before. -/
theorem host6 (c : Dev nD) (r : Ref sig .tc) (h : r ∉ written6) : W13 m ρ c (Proc.devRef .tc r) = W12 m ρ c (Proc.devRef .tc r) :=
  StableHlo.after_of_writes_sub hostOps6 _ writes6 h

/-- The buffers the operations of stretch 7 write, in order. -/
abbrev written7 : List (Ref sig .tc) := [main_v95]
theorem writes7 : (hostOps7 : List (HloOp τ sig (Elt F))).Forall fun op => op.writes ⊆ (written7.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 7 does not write holds after it what it held before. -/
theorem host7 (c : Dev nD) (r : Ref sig .tc) (h : r ∉ written7) : W15 m ρ c (Proc.devRef .tc r) = W14 m ρ c (Proc.devRef .tc r) :=
  StableHlo.after_of_writes_sub hostOps7 _ writes7 h

end Cert.KernelIdeal.Keep

end
-- ==== Proof.GcnSpec.lean ====
/-
  The mathematics of a three-layer graph convolution, stated once, index by index, on the extended reals.

  Nodes carry 128 features. A dense layer sends node `p`'s feature row through a weight matrix:
  `dense h W (p, q) = ∑ k, h (p, k) · W (k, q)`. The network is
    h₀ = max (dense x W₁ + b₁, 0),
    h_{l+1} = agg (dense h_l W_l) + (s · dense h_l W_l + c_l)        (l = 0, 1, 2),
    out = dense h₃ W₂ + b₂,
  where `s` is a per-node scale (one column), `c_l` a bias row, and `agg` the neighbour aggregation (a scatter of
  gathered, edge-scaled rows; it is never opened here). The one law used between two ways of writing a layer is the
  associativity of addition on the extended reals, which holds at the infinities too:
  `(a + s · v) + c = a + (s · v + c)`.
-/
import Idealize.ShloMosaic.PureOps.Ideal
import Idealize.ShloMosaic.Lib.ValueIdx

noncomputable section

open scoped BigOperators
open Idealize.ShloMosaic Idealize.ShloMosaic.ValueIdx

namespace Cert.Gcn

/-- An array of extended reals over a literal rank-2 shape. -/
abbrev Arr2 (a b : Nat) : Type := (⟨2, ![a, b]⟩ : Shape).Idx → EReal

/-- An array from its entries by coordinates. -/
def ofCoords {a b : Nat} (f : Fin a → Fin b → EReal) : Arr2 a b := fun i => f (i 0) (i 1)

theorem ofCoords_ix2 {a b : Nat} (f : Fin a → Fin b → EReal) (p : Fin a) (q : Fin b) : ofCoords f (ix2 p q) = f p q := rfl

/-- Row `p` of `h` against column `q` of `W`, contracted over the 128 features. -/
def rowDot {n e : Nat} (h : Arr2 n 128) (W : Arr2 128 e) (p : Fin n) (q : Fin e) : EReal :=
  ∑ k : Fin 128, h (ix2 p k) * W (ix2 k q)

/-- The input layer: a dense layer, a bias row, then the positive part. -/
def linRelu (x : Arr2 50000 128) (W : Arr2 128 128) (b : Arr2 1 128) : Arr2 50000 128 :=
  ofCoords fun p q => max (rowDot x W p q + b (ix2 0 q)) 0

/-- A dense layer 128 → 128 over all nodes. -/
def dense (h : Arr2 50000 128) (W : Arr2 128 128) : Arr2 50000 128 := ofCoords fun p q => rowDot h W p q

/-- A node's own term of a convolution layer: its dense row scaled by the node's factor, plus the bias row. -/
def selfTerm (h : Arr2 50000 128) (W : Arr2 128 128) (s : Arr2 50000 1) (b : Arr2 1 128) : Arr2 50000 128 :=
  ofCoords fun p q => s (ix2 p 0) * rowDot h W p q + b (ix2 0 q)

/-- Two feature arrays added entry by entry. -/
def plus (a b : Arr2 50000 128) : Arr2 50000 128 := fun i => a i + b i

/-- The output layer: a dense layer 128 → 64 and a bias row. -/
def linOut (h : Arr2 50000 128) (W : Arr2 128 64) (b : Arr2 1 64) : Arr2 50000 64 :=
  ofCoords fun p q => rowDot h W p q + b (ix2 0 q)

/-- A layer written with the bias added last is the layer written with the bias inside the node's own term:
    addition on the extended reals is associative. -/
theorem plus_selfTerm (a h : Arr2 50000 128) (W : Arr2 128 128) (s : Arr2 50000 1) (b : Arr2 1 128) (i : (⟨2, ![50000, 128]⟩ : Shape).Idx) :
    (a i + s (ix2 (i 0) 0) * rowDot h W (i 0) (i 1)) + b (ix2 0 (i 1)) = plus a (selfTerm h W s b) i := by
  show _ = a i + (s (ix2 (i 0) 0) * rowDot h W (i 0) (i 1) + b (ix2 0 (i 1)))
  exact add_assoc _ _ _

end Cert.Gcn

end
-- ==== Proof.GcnModel.lean ====
/-
  The whole network as ONE function of its eight arguments, at the extended reals.

  The dense parts are the functions of GcnSpec. The graph parts — the two edge lists, the edge scale
  `d⁻¹ᐟ²[src] · d⁻¹ᐟ²[dst]`, the node scale `d⁻¹` as a column, the slices of the stacked layer weights and biases —
  are the reference program's own stage terms, taken as they stand and never opened: both programs apply the same
  operations there, so only their names matter. `agg` is the neighbour aggregation of a feature array: gather the
  source rows, scale each edge's row, scatter-add into the destination rows.
-/
import proofs.«415000_j23407571763562_3_alg».proof.Proof.Gen.ReferenceIdeal.Read
import proofs.«415000_j23407571763562_3_alg».proof.Proof.GcnSpec

noncomputable section

namespace Cert.GcnModel

open Cert.ReferenceIdeal Cert.ReferenceIdeal.Gen Cert.ReferenceIdeal.Read
open Idealize.ShloMosaic Idealize.ShloMosaic.TcCoe

/-- A 128-vector and a 64-vector cast to one row. -/
theorem casts_row128 : S128.ShapeCasts S1x128 := by decide
theorem casts_row64 : S64.ShapeCasts S1x64 := by decide

/-- A bias vector laid out as one row. -/
def row128 (b : FVec Ideal S128 .f32) : FVec Ideal S1x128 .f32 := shapeCast S1x128 b casts_row128
def row64 (b : FVec Ideal S64 .f32) : FVec Ideal S1x64 .f32 := shapeCast S1x64 b casts_row64

/-- Neighbour aggregation of a feature array `hw` over the edge list `e`: the rows of `hw` at the edges' sources, each
    scaled by its edge's factor, added into the rows at the edges' destinations, from zero. -/
def agg (e : IVec S2x800000 32) (hw : FVec Ideal S50000x128 .f32) : FVec Ideal S50000x128 .f32 :=
  Host.scatterAdd scatter_S50000x128_S800000x1_S800000x128_1_0_0_1 (val_main_v51 (F := Ideal)) (val_main_v52 (F := Ideal) e)
    (mulf (Host.gather gather_S50000x128_S800000x1_S800000x128_1_0_n_n_0_1_1128 hw (val_main_v46 (F := Ideal) e)) (val_main_v49 (F := Ideal) e))

/-- One convolution layer with weights `W` and bias row `b`: the aggregated dense rows plus each node's own term. -/
def layer (e : IVec S2x800000 32) (W : FVec Ideal S128x128 .f32) (b : FVec Ideal S1x128 .f32) (h : FVec Ideal S50000x128 .f32) :
    FVec Ideal S50000x128 .f32 :=
  Cert.Gcn.plus (agg e (Cert.Gcn.dense h W)) (Cert.Gcn.selfTerm h W (val_main_v32 (F := Ideal) e) b)

/-- The network: input layer, three convolution layers on the three weight slices, output layer. -/
def out (x : FVec Ideal S50000x128 .f32) (e : IVec S2x800000 32) (W1 : FVec Ideal S128x128 .f32) (b1 : FVec Ideal S128 .f32)
    (Wc : FVec Ideal S3x128x128 .f32) (bc : FVec Ideal S3x128 .f32) (W2 : FVec Ideal S128x64 .f32) (b2 : FVec Ideal S64 .f32) :
    FVec Ideal S50000x64 .f32 :=
  Cert.Gcn.linOut
    (layer e (val_main_v87 (F := Ideal) Wc) (row128 (val_main_v106 (F := Ideal) bc))
      (layer e (val_main_v63 (F := Ideal) Wc) (row128 (val_main_v82 (F := Ideal) bc))
        (layer e (val_main_v39 (F := Ideal) Wc) (row128 (val_main_v58 (F := Ideal) bc))
          (Cert.Gcn.linRelu x W1 (row128 b1)))))
    W2 (row64 b2)

end Cert.GcnModel

end
-- ==== Proof.BlockDot.lean ====
/-
  A block's matrix product read at coordinates. At the extended reals a `tpu.matmul` into the zero accumulator is the
  plain sum over the contracted axis: entry (p, q) of the product of a [5000, 128] block with a [128, e] matrix is
  `∑ k, x (p, k) · w (k, q)` (here e = 128, the hidden layers' width). The operand formats play no
  part: a change of float format is the identity here.
-/
import proofs.«415000_j23407571763562_3_alg».proof.KernelIdeal
import proofs.«415000_j23407571763562_3_alg».proof.Proof.Gen.KernelIdeal
import Idealize.ShloMosaic.Lib.ValueIdx
import Idealize.ShloMosaic.PureOps.Ideal.Laws

noncomputable section

open scoped BigOperators
open Cert.KernelIdeal Cert.KernelIdeal.Gen
open Idealize.ShloMosaic Idealize.ShloMosaic.TcCoe Idealize.ShloMosaic.ValueIdx

namespace Cert.KernelIdeal.BlockDot

theorem lhs128_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- [5000, 128] × [128, 128] into zero, at (p, q): the sum over the contracted axis. -/
theorem dot128_apply {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

end Cert.KernelIdeal.BlockDot

end
-- ==== Proof.Region0.lean ====
/-
  The input layer's call: ten blocks of 5000 node rows. At point `t` the body reads block row `t` of the node
  features, the whole weight matrix and the whole bias row, and writes block row `t` of the output: entry (p, q) of
  the block is the positive part of (row p of the block against column q of the weight matrix, plus the bias at q).
  Row p of block `t` is row `5000 t + p` of the array, so what point `t` writes back is block `t` of the layer's
  value on the whole arrays, and the ten blocks tile the output array: it ends holding `linRelu x W b`.
-/
import proofs.«415000_j23407571763562_3_alg».proof.Proof.Gen.KernelIdeal.Frame
import proofs.«415000_j23407571763562_3_alg».proof.Proof.GcnSpec
import proofs.«415000_j23407571763562_3_alg».proof.Proof.BlockDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Cert.KernelIdeal Cert.KernelIdeal.Gen
open Idealize.ShloMosaic Idealize.ShloMosaic.TcCoe Idealize.ShloMosaic.ValueIdx Idealize.SL.Sem
open Idealize.ShloMosaic.Pipeline (Dat)

namespace Cert.KernelIdeal.Region0

variable (V : (c : Dev nD) → (b : Ref sig .tc) → Buf (Elt Ideal) ((c : Thread nD τ).loc b))

/-- The three input arrays as the call finds them, at their literal types. -/
abbrev inX (c : Dev nD) : FVec Ideal S50000x128 .f32 := V c main_arg0
abbrev inW (c : Dev nD) : FVec Ideal S128x128 .f32 := V c main_arg2
abbrev inB (c : Dev nD) : FVec Ideal S1x128 .f32 := V c main_v33

theorem zeroOff : (![0, 0] : Fin 2 → Nat) = fun _ => 0 := funext fun a => by fin_cases a <;> rfl

/-- The body's value at block coordinates (p, q): row p of the block against column q of the weight matrix, plus the
    bias row's entry q, then the positive part (a change of float format and a same-shape cast are the identity, the
    f32 zero word is the extended real 0). -/
theorem pay_apply (x0 : Vec Ideal S5000x128 .f32) (x1 : Vec Ideal S128x128 .f32) (x2 : Vec Ideal S1x128 .f32) (p : Fin 5000) (q : Fin 128) :
    k0_pay1 (F := Ideal) x0 x1 x2 (ix2 p q) = max ((∑ k : Fin 128, x0 (ix2 p k) * x1 (ix2 k q)) + x2 (ix2 0 q)) 0 := by
  unfold k0_pay1
  rw [maximumf_apply, addf_apply, BlockDot.dot128_apply, shapeCast_self, broadcastTo_1b_ab_apply, broadcast_apply]
  simp only [truncf_apply]
  exact congrArg (max _) Ideal.ofBits_zero_f32

/-- Where the windows sit at point `t`: the row block of the input rows and of the output is block row `t`, block
    column 0; the weight matrix and the bias row are whole (block 0 on both axes). -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the layer's value on the whole arrays. -/
theorem flushed_eq (c : Dev nD) (t : Fin cfg0.N) :
    (dat0 V c).flushed 3 t = ((cfg0.win 3).blk t).view.read (Elt Ideal) (Cert.Gcn.linRelu (inX V c) (inW V c) (inB V c)) := by
  show (cfg0.win 3).cut (grid0.coords t) ((dat0 V c).after 3 t) = _
  rw [after0_3]
  unfold out0_3
  rw [View.canon_unit_zero zeroOff]
  simp only [View.ld_unit_zero (S := S5000x128) zeroOff, View.ld_unit_zero (S := S128x128) zeroOff, View.ld_unit_zero (S := S1x128) zeroOff]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  refine (pay_apply _ _ _ p q).trans ?_
  show max ((∑ k : Fin 128, inX V c (((cfg0.win 0).blk t).view.emb (ix2 p k)) * inW V c (((cfg0.win 1).blk t).view.emb (ix2 k q)))
        + inB V c (((cfg0.win 2).blk t).view.emb (ix2 (0 : Fin 1) q))) 0
    = max ((∑ k : Fin 128, inX V c (ix2 (((cfg0.win 3).blk t).view.emb (ix2 p q) (0 : Fin 2)) k) * inW V c (ix2 k (((cfg0.win 3).blk t).view.emb (ix2 p q) (1 : Fin 2))))
        + inB V c (ix2 (0 : Fin 1) (((cfg0.win 3).blk t).view.emb (ix2 p q) (1 : Fin 2)))) 0
  have h0 : ∀ k : Fin 128, ((cfg0.win 0).blk t).view.emb (ix2 p k) = ix2 (((cfg0.win 3).blk t).view.emb (ix2 p q) (0 : Fin 2)) k := by
    intro k; funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : ∀ k : Fin 128, ((cfg0.win 1).blk t).view.emb (ix2 k q) = ix2 k (((cfg0.win 3).blk t).view.emb (ix2 p q) (1 : Fin 2)) := by
    intro k; funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : ((cfg0.win 2).blk t).view.emb (ix2 (0 : Fin 1) q) = ix2 (0 : Fin 1) (((cfg0.win 3).blk t).view.emb (ix2 p q) (1 : Fin 2)) := by
    funext a; apply Fin.ext
    match a with
    | ⟨0, _⟩ => show win0_2.index t (0 : Fin 2) * 1 + 1 * (0 : Fin 1).val = (0 : Fin 1).val; omega
    | ⟨1, _⟩ => show win0_2.index t (1 : Fin 2) * 128 + 1 * q.val = win0_3.index t (1 : Fin 2) * 128 + 1 * q.val; omega
  refine congrArg (max · 0) (congrArg₂ (· + ·) (Finset.sum_congr rfl fun k _ => ?_) (congrArg (inB V c) h2))
  exact congrArg₂ (· * ·) (congrArg (inX V c) (h0 k)) (congrArg (inW V c) (h1 k))

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v34).slice (win0_3.rect t)).set ↔ _
  rw [View.set_slice_whole, Rect.mem_set_unit]
  exact Iff.rfl

/-- Every block row is some point's: the point number is the block row. -/
theorem idx_onto : ∀ r : Fin 10, ∃ t : Fin cfg0.N, win0_3.index t = ![r.val, 0] :=
  (by decide +kernel : ∀ r : Fin 10, ∃ t : Fin grid0.N, win0_3.index t = ![r.val, 0])

/-- The ten blocks tile the output array: row `r` is in the block of point `r / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the call the output array holds the input layer's value of the three input arrays as the call found them. -/
theorem arr (c : Dev nD) : (dat0 V c).arrAt 3 cfg0.N = Cert.Gcn.linRelu (inX V c) (inW V c) (inB V c) :=
  (dat0 V c).arrAt_eq_of_cover 3 _ (fun t _ => flushed_eq V c t) cover

end Cert.KernelIdeal.Region0

end
-- ==== Proof.Region1.lean ====
/-
  The first convolution layer's dense call: ten blocks of 5000 node rows. At point `t` the body reads block row `t` of
  the feature array `h` and of the node-scale column `s`, the whole weight matrix `W` and the whole bias row `b`, and
  writes block row `t` of two arrays: the dense rows `∑ k, h (p, k) · W (k, q)`, and the nodes' own terms
  `s p · (∑ k, h (p, k) · W (k, q)) + b q`. Row `p` of a block is row `5000 t + p` of its array, so what point `t`
  writes back is block `t` of `dense h W`, respectively of `selfTerm h W s b`, and the ten blocks tile each array.
-/
import proofs.«415000_j23407571763562_3_alg».proof.Proof.Gen.KernelIdeal.Frame
import proofs.«415000_j23407571763562_3_alg».proof.Proof.GcnSpec
import proofs.«415000_j23407571763562_3_alg».proof.Proof.BlockDot
import Idealize.ShloMosaic.Lib.Pipeline.Value
import Idealize.ShloMosaic.Lib.ValueIdx
import Idealize.ShloMosaic.PureOps.Ideal.Laws

set_option maxRecDepth 16384

noncomputable section

open scoped BigOperators
open Cert.KernelIdeal Cert.KernelIdeal.Gen
open Idealize.ShloMosaic Idealize.ShloMosaic.TcCoe Idealize.ShloMosaic.ValueIdx Idealize.SL.Sem
open Idealize.ShloMosaic.Pipeline (Dat)

namespace Cert.KernelIdeal.Region1

variable (V : (c : Dev nD) → (b : Ref sig .tc) → Buf (Elt Ideal) ((c : Thread nD τ).loc b))

/-- The four input arrays as the call finds them, at their literal types. -/
abbrev inH (c : Dev nD) : FVec Ideal S50000x128 .f32 := V c main_v34
abbrev inW (c : Dev nD) : FVec Ideal S128x128 .f32 := V c main_v36
abbrev inS (c : Dev nD) : FVec Ideal S50000x1 .f32 := V c main_v32
abbrev inB (c : Dev nD) : FVec Ideal S1x128 .f32 := V c main_v39

theorem zeroOff : (![0, 0] : Fin 2 → Nat) = fun _ => 0 := funext fun a => by fin_cases a <;> rfl

/-- A `[5000, 1]` column broadcast to `[5000, 128]` reads, at `(p, q)`, the column's entry of row `p`. -/
theorem bcast_col (v : FVec Ideal S5000x1 .f32) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ => rfl
  | ⟨1, _⟩ => rfl

/-- A `[1, 128]` row broadcast to `[5000, 128]` reads, at `(p, q)`, the row's entry of column `q`. -/
theorem bcast_row (v : FVec Ideal S1x128 .f32) (p : Fin 5000) (q : Fin 128) :
    broadcastTo S5000x128 v broadcasts_S1x128_S5000x128 (ix2 p q) = v (ix2 (0 : Fin 1) q) := by
  refine broadcastTo_apply v broadcasts_S1x128_S5000x128 (ix2 p q) (ix2 (0 : Fin 1) q) fun ax => ?_
  match ax with
  | ⟨0, _⟩ => rfl
  | ⟨1, _⟩ => rfl

/-- The first stored value at `(p, q)`: row `p` of the feature block against column `q` of the weight matrix (the
    same-shape casts and the changes of float format are the identity; the accumulator is zero). -/
theorem pay1_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  simp only [shapeCast_self]
  exact BlockDot.dot128_apply (truncf .bf16 x0 bitsLt_bf16_f32) (truncf .bf16 x1 bitsLt_bf16_f32) p q

/-- The second stored value at `(p, q)`: the node's scale times the first value, plus the bias row's entry. -/
theorem pay2_apply (x0 : Vec Ideal S5000x128 .f32) (x1 : Vec Ideal S128x128 .f32) (x2 : Vec Ideal S5000x1 .f32) (x3 : Vec Ideal S1x128 .f32)
    (p : Fin 5000) (q : Fin 128) :
    k1_pay2 (F := Ideal) x0 x1 x2 x3 (ix2 p q)
      = x2 (ix2 p (0 : Fin 1)) * (∑ k : Fin 128, x0 (ix2 p k) * x1 (ix2 k q)) + x3 (ix2 (0 : Fin 1) q) := by
  unfold k1_pay2
  simp only [shapeCast_self]
  rw [addf_apply, mulf_apply, bcast_col, bcast_row, pay1_apply]

/-- The grid has ten points. -/
theorem N_eq : cfg1.N = 10 := (by decide : grid1.N = 10)

/-- Where the windows are at point `t`: the two row-blocked inputs and both outputs at block row `t`, block column 0;
    the weight matrix and the bias row at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `p` of block `t` as a row of the whole array. -/
def row (t : Fin cfg1.N) (p : Fin 5000) : Fin 50000 :=
  ⟨t.val * 5000 + p.val, by have := lt_of_lt_of_eq t.isLt N_eq; have := p.isLt; omega⟩

/-- Entry `(p, k)` of the feature block at point `t` is entry `(5000 t + p, k)` of the feature array. -/
theorem emb0 (t : Fin cfg1.N) (p : Fin 5000) (k : Fin 128) : ((cfg1.win 0).blk t).view.emb (ix2 p k) = ix2 (row t p) k := by
  obtain ⟨e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The weight matrix's block is the whole matrix. -/
theorem emb1 (t : Fin cfg1.N) (k : Fin 128) (q : Fin 128) : ((cfg1.win 1).blk t).view.emb (ix2 k q) = ix2 k q := by
  obtain ⟨-, -, e0, e1, -⟩ := idx_facts t
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- Entry `(p, 0)` of the scale block at point `t` is entry `(5000 t + p, 0)` of the scale column. -/
theorem emb2 (t : Fin cfg1.N) (p : Fin 5000) : ((cfg1.win 2).blk t).view.emb (ix2 p (0 : Fin 1)) = ix2 (row t p) (0 : Fin 1) := by
  obtain ⟨-, -, -, -, e0, e1, -⟩ := idx_facts t
  funext a; apply Fin.ext
  match a with
  | ⟨0, _⟩ => show win1_2.index t (0 : Fin 2) * 5000 + 1 * p.val = t.val * 5000 + p.val; omega
  | ⟨1, _⟩ => show win1_2.index t (1 : Fin 2) * 1 + 1 * 0 = 0; omega

/-- The bias row's block is the whole row. -/
theorem emb3 (t : Fin cfg1.N) (q : Fin 128) : ((cfg1.win 3).blk t).view.emb (ix2 (0 : Fin 1) q) = ix2 (0 : Fin 1) q := by
  obtain ⟨-, -, -, -, -, -, e0, e1, -⟩ := idx_facts t
  funext a; apply Fin.ext
  match a with
  | ⟨0, _⟩ => show win1_3.index t (0 : Fin 2) * 1 + 1 * 0 = 0; omega
  | ⟨1, _⟩ => show win1_3.index t (1 : Fin 2) * 128 + 1 * q.val = q.val; omega

/-- Entry `(p, q)` of either output block at point `t` is entry `(5000 t + p, q)` of its array. -/
theorem emb4 (t : Fin cfg1.N) (p : Fin 5000) (q : Fin 128) : ((cfg1.win 4).blk t).view.emb (ix2 p q) = ix2 (row t p) q := by
  obtain ⟨-, -, -, -, -, -, -, -, e0, e1, -⟩ := idx_facts t
  funext a; apply Fin.ext
  match a with
  | ⟨0, _⟩ => show win1_4.index t (0 : Fin 2) * 5000 + 1 * p.val = t.val * 5000 + p.val; omega
  | ⟨1, _⟩ => show win1_4.index t (1 : Fin 2) * 128 + 1 * q.val = q.val; omega
theorem emb5 (t : Fin cfg1.N) (p : Fin 5000) (q : Fin 128) : ((cfg1.win 5).blk t).view.emb (ix2 p q) = ix2 (row t p) q := by
  obtain ⟨-, -, -, -, -, -, -, -, -, -, e0, e1⟩ := idx_facts t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-- What point `t` writes back to the first output is block `t` of the dense rows of the whole arrays. -/
theorem flushed_eq4 (c : Dev nD) (t : Fin cfg1.N) :
    (dat1 V c).flushed 4 t = ((cfg1.win 4).blk t).view.read (Elt Ideal) (Cert.Gcn.dense (inH V c) (inW V c)) := by
  show (cfg1.win 4).cut (grid1.coords t) ((dat1 V c).after 4 t) = _
  rw [after1_4]
  unfold out1_4
  rw [View.canon_unit_zero zeroOff]
  simp only [View.ld_unit_zero (S := S5000x128) zeroOff, View.ld_unit_zero (S := S128x128) zeroOff]
  funext j
  obtain ⟨p, q, rfl⟩ : ∃ (p : Fin 5000) (q : Fin 128), j = ix2 p q := ⟨j 0, j 1, eq_ix2 j⟩
  refine (pay1_apply _ _ p q).trans ?_
  show ∑ k : Fin 128, inH V c (((cfg1.win 0).blk t).view.emb (ix2 p k)) * inW V c (((cfg1.win 1).blk t).view.emb (ix2 k q))
    = Cert.Gcn.dense (inH V c) (inW V c) (((cfg1.win 4).blk t).view.emb (ix2 p q))
  rw [emb4]
  show _ = ∑ k : Fin 128, inH V c (ix2 (row t p) k) * inW V c (ix2 k q)
  refine Finset.sum_congr rfl fun k _ => ?_
  rw [emb0, emb1]

/-- What point `t` writes back to the second output is block `t` of the nodes' own terms of the whole arrays. -/
theorem flushed_eq5 (c : Dev nD) (t : Fin cfg1.N) :
    (dat1 V c).flushed 5 t
      = ((cfg1.win 5).blk t).view.read (Elt Ideal) (Cert.Gcn.selfTerm (inH V c) (inW V c) (inS V c) (inB V c)) := by
  show (cfg1.win 5).cut (grid1.coords t) ((dat1 V c).after 5 t) = _
  rw [after1_5]
  unfold out1_5
  rw [View.canon_unit_zero zeroOff]
  simp only [View.ld_unit_zero (S := S5000x128) zeroOff, View.ld_unit_zero (S := S128x128) zeroOff,
    View.ld_unit_zero (S := S5000x1) zeroOff, View.ld_unit_zero (S := S1x128) zeroOff]
  funext j
  obtain ⟨p, q, rfl⟩ : ∃ (p : Fin 5000) (q : Fin 128), j = ix2 p q := ⟨j 0, j 1, eq_ix2 j⟩
  refine (pay2_apply _ _ _ _ p q).trans ?_
  show inS V c (((cfg1.win 2).blk t).view.emb (ix2 p (0 : Fin 1)))
      * (∑ k : Fin 128, inH V c (((cfg1.win 0).blk t).view.emb (ix2 p k)) * inW V c (((cfg1.win 1).blk t).view.emb (ix2 k q)))
      + inB V c (((cfg1.win 3).blk t).view.emb (ix2 (0 : Fin 1) q))
    = Cert.Gcn.selfTerm (inH V c) (inW V c) (inS V c) (inB V c) (((cfg1.win 5).blk t).view.emb (ix2 p q))
  rw [emb5, emb2, emb3]
  show _ = inS V c (ix2 (row t p) (0 : Fin 1)) * (∑ k : Fin 128, inH V c (ix2 (row t p) k) * inW V c (ix2 k q)) + inB V c (ix2 (0 : Fin 1) q)
  refine congrArg (fun z => inS V c (ix2 (row t p) (0 : Fin 1)) * z + inB V c (ix2 (0 : Fin 1) q)) ?_
  refine Finset.sum_congr rfl fun k _ => ?_
  rw [emb0, emb1]

/-- An index of the first output array is in point `t`'s block iff each coordinate is in the block's range on its axis. -/
theorem mem_blk4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v40_0).slice (win1_4.rect t)).set ↔ _
  rw [View.set_slice_whole, Rect.mem_set_unit]
  exact Iff.rfl

/-- The same for the second output array. -/
theorem mem_blk5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40_1).slice (win1_5.rect t)).set ↔ _
  rw [View.set_slice_whole, Rect.mem_set_unit]
  exact Iff.rfl

/-- Every block row is some point's, for both outputs: the point number is the block row. -/
theorem idx_onto : ∀ r : Fin 10, ∃ t : Fin cfg1.N, win1_4.index t = ![r.val, 0] ∧ win1_5.index t = ![r.val, 0] :=
  (by decide +kernel : ∀ r : Fin 10, ∃ t : Fin grid1.N, win1_4.index t = ![r.val, 0] ∧ win1_5.index t = ![r.val, 0])

/-- The ten blocks tile the first output array: row `r` is in the block of point `r / 5000`. -/
theorem cover4 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht, -⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The ten blocks tile the second output array the same way. -/
theorem cover5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, -, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the call the first output array holds the dense rows of the feature array as the call found it. -/
theorem arr_dense (c : Dev nD) : (dat1 V c).arrAt 4 cfg1.N = Cert.Gcn.dense (inH V c) (inW V c) :=
  (dat1 V c).arrAt_eq_of_cover 4 _ (fun t _ => flushed_eq4 V c t) cover4

/-- After the call the second output array holds the nodes' own terms: scale times dense row, plus the bias row. -/
theorem arr_self (c : Dev nD) : (dat1 V c).arrAt 5 cfg1.N = Cert.Gcn.selfTerm (inH V c) (inW V c) (inS V c) (inB V c) :=
  (dat1 V c).arrAt_eq_of_cover 5 _ (fun t _ => flushed_eq5 V c t) cover5

end Cert.KernelIdeal.Region1

end
-- ==== Proof.Region2.lean ====
/-
  The first combine call: ten blocks of 5000 node rows, each block the entrywise sum of the same block of the two
  input arrays. Block `t` of each of the three arrays is rows `5000 t … 5000 t + 4999`, all 128 columns, so what point
  `t` writes back is block `t` of the entrywise sum of the whole arrays, and the ten blocks tile the array: the
  output array ends holding `plus a b`.
-/
import proofs.«415000_j23407571763562_3_alg».proof.Proof.Gen.KernelIdeal.Frame
import proofs.«415000_j23407571763562_3_alg».proof.Proof.GcnSpec
import Idealize.ShloMosaic.Lib.Pipeline.Value
import Idealize.ShloMosaic.Lib.ValueIdx
import Idealize.ShloMosaic.PureOps.Ideal.Laws

set_option maxRecDepth 16384

noncomputable section

open scoped BigOperators
open Cert.KernelIdeal Cert.KernelIdeal.Gen
open Idealize.ShloMosaic Idealize.ShloMosaic.TcCoe Idealize.ShloMosaic.ValueIdx Idealize.SL.Sem
open Idealize.ShloMosaic.Pipeline (Dat)

namespace Cert.KernelIdeal.Region2

variable (V : (c : Dev nD) → (b : Ref sig .tc) → Buf (Elt Ideal) ((c : Thread nD τ).loc b))

/-- The two input arrays as the call finds them, at their literal type. -/
abbrev inA (c : Dev nD) : FVec Ideal S50000x128 .f32 := V c main_v53
abbrev inB (c : Dev nD) : FVec Ideal S50000x128 .f32 := V c main_v40_1

theorem zeroOff : (![0, 0] : Fin 2 → Nat) = fun _ => 0 := funext fun a => by fin_cases a <;> rfl

/-- The body's value: the two loaded blocks added entry by entry (the two same-shape casts are the identity). -/
theorem pay_eq (x0 x1 : Vec Ideal S5000x128 .f32) : k2_pay1 (F := Ideal) x0 x1 = fun j => x0 j + x1 j := by
  unfold k2_pay1
  simp only [shapeCast_self]
  rfl

/-- The three windows move together: at point `t` each is at block row `t`, block column 0. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val ∧ win2_2.index t (1 : Fin 2) = 0 :=
  (by decide +kernel : ∀ t : Fin grid2.N, _)

/-- What point `t` writes back is block `t` of the entrywise sum of the two whole arrays. -/
theorem flushed_eq (c : Dev nD) (t : Fin cfg2.N) :
    (dat2 V c).flushed 2 t = ((cfg2.win 2).blk t).view.read (Elt Ideal) (Cert.Gcn.plus (inA V c) (inB V c)) := by
  show (cfg2.win 2).cut (grid2.coords t) ((dat2 V c).after 2 t) = _
  rw [after2_2]
  unfold out2_2
  rw [View.canon_unit_zero zeroOff]
  simp only [View.ld_unit_zero (S := S5000x128) zeroOff]
  rw [pay_eq]
  obtain ⟨e0, e1, e2, e3, e4, e5⟩ := idx_facts t
  funext j
  show inA V c (((cfg2.win 0).blk t).view.emb j) + inB V c (((cfg2.win 1).blk t).view.emb j)
    = inA V c (((cfg2.win 2).blk t).view.emb j) + inB V c (((cfg2.win 2).blk t).view.emb j)
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * (j 1).val = win2_2.index t (1 : Fin 2) * 128 + 1 * (j 1).val; omega
  rw [h0, h1]

/-- An index of the array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v54).slice (win2_2.rect t)).set ↔ _
  rw [View.set_slice_whole, Rect.mem_set_unit]
  exact Iff.rfl

/-- Every block row is some point's: the point number is the block row. -/
theorem idx_onto : ∀ q : Fin 10, ∃ t : Fin cfg2.N, win2_2.index t = ![q.val, 0] :=
  (by decide +kernel : ∀ q : Fin 10, ∃ t : Fin grid2.N, win2_2.index t = ![q.val, 0])

/-- The ten blocks tile the array: row `r` is in the block of point `r / 5000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the call the output array holds the entrywise sum of the two input arrays as the call found them. -/
theorem arr (c : Dev nD) : (dat2 V c).arrAt 2 cfg2.N = Cert.Gcn.plus (inA V c) (inB V c) :=
  (dat2 V c).arrAt_eq_of_cover 2 _ (fun t _ => flushed_eq V c t) cover

end Cert.KernelIdeal.Region2

end
-- ==== Proof.Region3.lean ====
/-
  The second convolution layer's dense call: ten blocks of 5000 node rows. At point `t` the body reads block row `t` of
  the feature array `h` and of the node-scale column `s`, the whole weight matrix `W` and the whole bias row `b`, and
  writes block row `t` of two arrays: the dense rows `∑ k, h (p, k) · W (k, q)`, and the nodes' own terms
  `s p · (∑ k, h (p, k) · W (k, q)) + b q`. Row `p` of a block is row `5000 t + p` of its array, so what point `t`
  writes back is block `t` of `dense h W`, respectively of `selfTerm h W s b`, and the ten blocks tile each array.
-/
import proofs.«415000_j23407571763562_3_alg».proof.Proof.Gen.KernelIdeal.Frame
import proofs.«415000_j23407571763562_3_alg».proof.Proof.GcnSpec
import proofs.«415000_j23407571763562_3_alg».proof.Proof.BlockDot
import Idealize.ShloMosaic.Lib.Pipeline.Value
import Idealize.ShloMosaic.Lib.ValueIdx
import Idealize.ShloMosaic.PureOps.Ideal.Laws

set_option maxRecDepth 16384

noncomputable section

open scoped BigOperators
open Cert.KernelIdeal Cert.KernelIdeal.Gen
open Idealize.ShloMosaic Idealize.ShloMosaic.TcCoe Idealize.ShloMosaic.ValueIdx Idealize.SL.Sem
open Idealize.ShloMosaic.Pipeline (Dat)

namespace Cert.KernelIdeal.Region3

variable (V : (c : Dev nD) → (b : Ref sig .tc) → Buf (Elt Ideal) ((c : Thread nD τ).loc b))

/-- The four input arrays as the call finds them, at their literal types. -/
abbrev inH (c : Dev nD) : FVec Ideal S50000x128 .f32 := V c main_v54
abbrev inW (c : Dev nD) : FVec Ideal S128x128 .f32 := V c main_v56
abbrev inS (c : Dev nD) : FVec Ideal S50000x1 .f32 := V c main_v32
abbrev inB (c : Dev nD) : FVec Ideal S1x128 .f32 := V c main_v59

theorem zeroOff : (![0, 0] : Fin 2 → Nat) = fun _ => 0 := funext fun a => by fin_cases a <;> rfl

/-- A `[5000, 1]` column broadcast to `[5000, 128]` reads, at `(p, q)`, the column's entry of row `p`. -/
theorem bcast_col (v : FVec Ideal S5000x1 .f32) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ => rfl
  | ⟨1, _⟩ => rfl

/-- A `[1, 128]` row broadcast to `[5000, 128]` reads, at `(p, q)`, the row's entry of column `q`. -/
theorem bcast_row (v : FVec Ideal S1x128 .f32) (p : Fin 5000) (q : Fin 128) :
    broadcastTo S5000x128 v broadcasts_S1x128_S5000x128 (ix2 p q) = v (ix2 (0 : Fin 1) q) := by
  refine broadcastTo_apply v broadcasts_S1x128_S5000x128 (ix2 p q) (ix2 (0 : Fin 1) q) fun ax => ?_
  match ax with
  | ⟨0, _⟩ => rfl
  | ⟨1, _⟩ => rfl

/-- The first stored value at `(p, q)`: row `p` of the feature block against column `q` of the weight matrix (the
    same-shape casts and the changes of float format are the identity; the accumulator is zero). -/
theorem pay1_apply (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  unfold k3_pay1
  simp only [shapeCast_self]
  exact BlockDot.dot128_apply (truncf .bf16 x0 bitsLt_bf16_f32) (truncf .bf16 x1 bitsLt_bf16_f32) p q

/-- The second stored value at `(p, q)`: the node's scale times the first value, plus the bias row's entry. -/
theorem pay2_apply (x0 : Vec Ideal S5000x128 .f32) (x1 : Vec Ideal S128x128 .f32) (x2 : Vec Ideal S5000x1 .f32) (x3 : Vec Ideal S1x128 .f32)
    (p : Fin 5000) (q : Fin 128) :
    k3_pay2 (F := Ideal) x0 x1 x2 x3 (ix2 p q)
      = x2 (ix2 p (0 : Fin 1)) * (∑ k : Fin 128, x0 (ix2 p k) * x1 (ix2 k q)) + x3 (ix2 (0 : Fin 1) q) := by
  unfold k3_pay2
  simp only [shapeCast_self]
  rw [addf_apply, mulf_apply, bcast_col, bcast_row, pay1_apply]

/-- The grid has ten points. -/
theorem N_eq : cfg3.N = 10 := (by decide : grid3.N = 10)

/-- Where the windows are at point `t`: the two row-blocked inputs and both outputs at block row `t`, block column 0;
    the weight matrix and the bias row at their one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Row `p` of block `t` as a row of the whole array. -/
def row (t : Fin cfg3.N) (p : Fin 5000) : Fin 50000 :=
  ⟨t.val * 5000 + p.val, by have := lt_of_lt_of_eq t.isLt N_eq; have := p.isLt; omega⟩

/-- Entry `(p, k)` of the feature block at point `t` is entry `(5000 t + p, k)` of the feature array. -/
theorem emb0 (t : Fin cfg3.N) (p : Fin 5000) (k : Fin 128) : ((cfg3.win 0).blk t).view.emb (ix2 p k) = ix2 (row t p) k := by
  obtain ⟨e0, e1, -⟩ := idx_facts t
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega

/-- The weight matrix's block is the whole matrix. -/
theorem emb1 (t : Fin cfg3.N) (k : Fin 128) (q : Fin 128) : ((cfg3.win 1).blk t).view.emb (ix2 k q) = ix2 k q := by
  obtain ⟨-, -, e0, e1, -⟩ := idx_facts t
  funext a; apply Fin.ext
  match a with
  | ⟨0, _⟩ => show win3_1.index t (0 : Fin 2) * 128 + 1 * k.val = k.val; omega
  | ⟨1, _⟩ => show win3_1.index t (1 : Fin 2) * 128 + 1 * q.val = q.val; omega

/-- Entry `(p, 0)` of the scale block at point `t` is entry `(5000 t + p, 0)` of the scale column. -/
theorem emb2 (t : Fin cfg3.N) (p : Fin 5000) : ((cfg3.win 2).blk t).view.emb (ix2 p (0 : Fin 1)) = ix2 (row t p) (0 : Fin 1) := by
  obtain ⟨-, -, -, -, e0, e1, -⟩ := idx_facts t
  funext a; apply Fin.ext
  match a with
  | ⟨0, _⟩ => show win3_2.index t (0 : Fin 2) * 5000 + 1 * p.val = t.val * 5000 + p.val; omega
  | ⟨1, _⟩ => show win3_2.index t (1 : Fin 2) * 1 + 1 * 0 = 0; omega

/-- The bias row's block is the whole row. -/
theorem emb3 (t : Fin cfg3.N) (q : Fin 128) : ((cfg3.win 3).blk t).view.emb (ix2 (0 : Fin 1) q) = ix2 (0 : Fin 1) q := by
  obtain ⟨-, -, -, -, -, -, e0, e1, -⟩ := idx_facts t
  funext a; apply Fin.ext
  match a with
  | ⟨0, _⟩ => show win3_3.index t (0 : Fin 2) * 1 + 1 * 0 = 0; omega
  | ⟨1, _⟩ => show win3_3.index t (1 : Fin 2) * 128 + 1 * q.val = q.val; omega

/-- Entry `(p, q)` of either output block at point `t` is entry `(5000 t + p, q)` of its array. -/
theorem emb4 (t : Fin cfg3.N) (p : Fin 5000) (q : Fin 128) : ((cfg3.win 4).blk t).view.emb (ix2 p q) = ix2 (row t p) q := by
  obtain ⟨-, -, -, -, -, -, -, -, e0, e1, -⟩ := idx_facts t
  funext a; apply Fin.ext
  match a with
  | ⟨0, _⟩ => show win3_4.index t (0 : Fin 2) * 5000 + 1 * p.val = t.val * 5000 + p.val; omega
  | ⟨1, _⟩ => show win3_4.index t (1 : Fin 2) * 128 + 1 * q.val = q.val; omega
theorem emb5 (t : Fin cfg3.N) (p : Fin 5000) (q : Fin 128) : ((cfg3.win 5).blk t).view.emb (ix2 p q) = ix2 (row t p) q := by
  obtain ⟨-, -, -, -, -, -, -, -, -, -, e0, e1⟩ := idx_facts t
  funext a; apply Fin.ext
  match a with
  | ⟨0, _⟩ => show win3_5.index t (0 : Fin 2) * 5000 + 1 * p.val = t.val * 5000 + p.val; omega
  | ⟨1, _⟩ => show win3_5.index t (1 : Fin 2) * 128 + 1 * q.val = q.val; omega

/-- What point `t` writes back to the first output is block `t` of the dense rows of the whole arrays. -/
theorem flushed_eq4 (c : Dev nD) (t : Fin cfg3.N) :
    (dat3 V c).flushed 4 t = ((cfg3.win 4).blk t).view.read (Elt Ideal) (Cert.Gcn.dense (inH V c) (inW V c)) := by
  show (cfg3.win 4).cut (grid3.coords t) ((dat3 V c).after 4 t) = _
  rw [after3_4]
  unfold out3_4
  rw [View.canon_unit_zero zeroOff]
  simp only [View.ld_unit_zero (S := S5000x128) zeroOff, View.ld_unit_zero (S := S128x128) zeroOff]
  funext j
  obtain ⟨p, q, rfl⟩ : ∃ (p : Fin 5000) (q : Fin 128), j = ix2 p q := ⟨j 0, j 1, eq_ix2 j⟩
  refine (pay1_apply _ _ p q).trans ?_
  show ∑ k : Fin 128, inH V c (((cfg3.win 0).blk t).view.emb (ix2 p k)) * inW V c (((cfg3.win 1).blk t).view.emb (ix2 k q))
    = Cert.Gcn.dense (inH V c) (inW V c) (((cfg3.win 4).blk t).view.emb (ix2 p q))
  rw [emb4]
  show _ = ∑ k : Fin 128, inH V c (ix2 (row t p) k) * inW V c (ix2 k q)
  refine Finset.sum_congr rfl fun k _ => ?_
  rw [emb0, emb1]

/-- What point `t` writes back to the second output is block `t` of the nodes' own terms of the whole arrays. -/
theorem flushed_eq5 (c : Dev nD) (t : Fin cfg3.N) :
    (dat3 V c).flushed 5 t
      = ((cfg3.win 5).blk t).view.read (Elt Ideal) (Cert.Gcn.selfTerm (inH V c) (inW V c) (inS V c) (inB V c)) := by
  show (cfg3.win 5).cut (grid3.coords t) ((dat3 V c).after 5 t) = _
  rw [after3_5]
  unfold out3_5
  rw [View.canon_unit_zero zeroOff]
  simp only [View.ld_unit_zero (S := S5000x128) zeroOff, View.ld_unit_zero (S := S128x128) zeroOff,
    View.ld_unit_zero (S := S5000x1) zeroOff, View.ld_unit_zero (S := S1x128) zeroOff]
  funext j
  obtain ⟨p, q, rfl⟩ : ∃ (p : Fin 5000) (q : Fin 128), j = ix2 p q := ⟨j 0, j 1, eq_ix2 j⟩
  refine (pay2_apply _ _ _ _ p q).trans ?_
  show inS V c (((cfg3.win 2).blk t).view.emb (ix2 p (0 : Fin 1)))
      * (∑ k : Fin 128, inH V c (((cfg3.win 0).blk t).view.emb (ix2 p k)) * inW V c (((cfg3.win 1).blk t).view.emb (ix2 k q)))
      + inB V c (((cfg3.win 3).blk t).view.emb (ix2 (0 : Fin 1) q))
    = Cert.Gcn.selfTerm (inH V c) (inW V c) (inS V c) (inB V c) (((cfg3.win 5).blk t).view.emb (ix2 p q))
  rw [emb5, emb2, emb3]
  show _ = inS V c (ix2 (row t p) (0 : Fin 1)) * (∑ k : Fin 128, inH V c (ix2 (row t p) k) * inW V c (ix2 k q)) + inB V c (ix2 (0 : Fin 1) q)
  refine congrArg (fun z => inS V c (ix2 (row t p) (0 : Fin 1)) * z + inB V c (ix2 (0 : Fin 1) q)) ?_
  refine Finset.sum_congr rfl fun k _ => ?_
  rw [emb0, emb1]

/-- An index of the first output array is in point `t`'s block iff each coordinate is in the block's range on its axis. -/
theorem mem_blk4 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v60_0).slice (win3_4.rect t)).set ↔ _
  rw [View.set_slice_whole, Rect.mem_set_unit]
  exact Iff.rfl

/-- The same for the second output array. -/
theorem mem_blk5 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v60_1).slice (win3_5.rect t)).set ↔ _
  rw [View.set_slice_whole, Rect.mem_set_unit]
  exact Iff.rfl

/-- Every block row is some point's, for both outputs: the point number is the block row. -/
theorem idx_onto : ∀ r : Fin 10, ∃ t : Fin cfg3.N, win3_4.index t = ![r.val, 0] ∧ win3_5.index t = ![r.val, 0] :=
  (by decide +kernel : ∀ r : Fin 10, ∃ t : Fin grid3.N, win3_4.index t = ![r.val, 0] ∧ win3_5.index t = ![r.val, 0])

/-- The ten blocks tile the first output array: row `r` is in the block of point `r / 5000`. -/
theorem cover4 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht, -⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk4]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The ten blocks tile the second output array the same way. -/
theorem cover5 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, -, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk5]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- After the call the first output array holds the dense rows of the feature array as the call found it. -/
theorem arr_dense (c : Dev nD) : (dat3 V c).arrAt 4 cfg3.N = Cert.Gcn.dense (inH V c) (inW V c) :=
  (dat3 V c).arrAt_eq_of_cover 4 _ (fun t _ => flushed_eq4 V c t) cover4

/-- After the call the second output array holds the nodes' own terms: scale times dense row, plus the bias row. -/
theorem arr_self (c : Dev nD) : (dat3 V c).arrAt 5 cfg3.N = Cert.Gcn.selfTerm (inH V c) (inW V c) (inS V c) (inB V c) :=
  (dat3 V c).arrAt_eq_of_cover 5 _ (fun t _ => flushed_eq5 V c t) cover5

end Cert.KernelIdeal.Region3

end
-- ==== Proof.Region4.lean ====
/-
  The second combine call: ten blocks of 5000 node rows, each block the entrywise sum of the same block of the two
  input arrays. Block `t` of each of the three arrays is rows `5000 t … 5000 t + 4999`, all 128 columns, so what point
  `t` writes back is block `t` of the entrywise sum of the whole arrays, and the ten blocks tile the array: the
  output array ends holding `plus a b`.
-/
import proofs.«415000_j23407571763562_3_alg».proof.Proof.Gen.KernelIdeal.Frame
import proofs.«415000_j23407571763562_3_alg».proof.Proof.GcnSpec
import Idealize.ShloMosaic.Lib.Pipeline.Value
import Idealize.ShloMosaic.Lib.ValueIdx
import Idealize.ShloMosaic.PureOps.Ideal.Laws

set_option maxRecDepth 16384

noncomputable section

open scoped BigOperators
open Cert.KernelIdeal Cert.KernelIdeal.Gen
open Idealize.ShloMosaic Idealize.ShloMosaic.TcCoe Idealize.ShloMosaic.ValueIdx Idealize.SL.Sem
open Idealize.ShloMosaic.Pipeline (Dat)

namespace Cert.KernelIdeal.Region4

variable (V : (c : Dev nD) → (b : Ref sig .tc) → Buf (Elt Ideal) ((c : Thread nD τ).loc b))

/-- The two input arrays as the call finds them, at their literal type. -/
abbrev inA (c : Dev nD) : FVec Ideal S50000x128 .f32 := V c main_v73
abbrev inB (c : Dev nD) : FVec Ideal S50000x128 .f32 := V c main_v60_1

theorem zeroOff : (![0, 0] : Fin 2 → Nat) = fun _ => 0 := funext fun a => by fin_cases a <;> rfl

/-- The body's value: the two loaded blocks added entry by entry (the two same-shape casts are the identity). -/
theorem pay_eq (x0 x1 : Vec Ideal S5000x128 .f32) : k4_pay1 (F := Ideal) x0 x1 = fun j => x0 j + x1 j := by
  unfold k4_pay1
  simp only [shapeCast_self]
  rfl

/-- The three windows move together: at point `t` each is at block row `t`, block column 0. -/
theorem idx_facts : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) = t.val ∧ win4_2.index t (1 : Fin 2) = 0 :=
  (by decide +kernel : ∀ t : Fin grid4.N, _)

/-- What point `t` writes back is block `t` of the entrywise sum of the two whole arrays. -/
theorem flushed_eq (c : Dev nD) (t : Fin cfg4.N) :
    (dat4 V c).flushed 2 t = ((cfg4.win 2).blk t).view.read (Elt Ideal) (Cert.Gcn.plus (inA V c) (inB V c)) := by
  show (cfg4.win 2).cut (grid4.coords t) ((dat4 V c).after 2 t) = _
  rw [after4_2]
  unfold out4_2
  rw [View.canon_unit_zero zeroOff]
  simp only [View.ld_unit_zero (S := S5000x128) zeroOff]
  rw [pay_eq]
  obtain ⟨e0, e1, e2, e3, e4, e5⟩ := idx_facts t
  funext j
  show inA V c (((cfg4.win 0).blk t).view.emb j) + inB V c (((cfg4.win 1).blk t).view.emb j)
    = inA V c (((cfg4.win 2).blk t).view.emb j) + inB V c (((cfg4.win 2).blk t).view.emb j)
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 5000 + 1 * (j 0).val = win4_2.index t (0 : Fin 2) * 5000 + 1 * (j 0).val; omega
    | ⟨1, _⟩ => show win4_1.index t (1 : Fin 2) * 128 + 1 * (j 1).val = win4_2.index t (1 : Fin 2) * 128 + 1 * (j 1).val; omega
  rw [h0, h1]

/-- An index of the array is in point `t`'s block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v74).slice (win4_2.rect t)).set ↔ _
  rw [View.set_slice_whole, Rect.mem_set_unit]
  exact Iff.rfl

/-- Every block row is some point's: the point number is the block row. -/
theorem idx_onto : ∀ q : Fin 10, ∃ t : Fin cfg4.N, win4_2.index t = ![q.val, 0] :=
  (by decide +kernel : ∀ q : Fin 10, ∃ t : Fin grid4.N, win4_2.index t = ![q.val, 0])

/-- The ten blocks tile the array: row `r` is in the block of point `r / 5000`. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the call the output array holds the entrywise sum of the two input arrays as the call found them. -/
theorem arr (c : Dev nD) : (dat4 V c).arrAt 2 cfg4.N = Cert.Gcn.plus (inA V c) (inB V c) :=
  (dat4 V c).arrAt_eq_of_cover 2 _ (fun t _ => flushed_eq V c t) cover

end Cert.KernelIdeal.Region4

end
-- ==== Proof.Region5.lean ====
/-
  The third convolution layer's dense call: ten blocks of 5000 node rows. At point `t` the body reads block row `t` of
  the feature array `h` and of the node-scale column `s`, the whole weight matrix `W` and the whole bias row `b`, and
  writes block row `t` of two arrays: the dense rows `∑ k, h (p, k) · W (k, q)`, and the nodes' own terms
  `s p · (∑ k, h (p, k) · W (k, q)) + b q`. Row `p` of a block is row `5000 t + p` of its array, so what point `t`
  writes back is block `t` of `dense h W`, respectively of `selfTerm h W s b`, and the ten blocks tile each array.
-/
import proofs.«415000_j23407571763562_3_alg».proof.Proof.Gen.KernelIdeal.Frame
import proofs.«415000_j23407571763562_3_alg».proof.Proof.GcnSpec
import proofs.«415000_j23407571763562_3_alg».proof.Proof.BlockDot
import Idealize.ShloMosaic.Lib.Pipeline.Value
import Idealize.ShloMosaic.Lib.ValueIdx
import Idealize.ShloMosaic.PureOps.Ideal.Laws

set_option maxRecDepth 16384

noncomputable section

open scoped BigOperators
open Cert.KernelIdeal Cert.KernelIdeal.Gen
open Idealize.ShloMosaic Idealize.ShloMosaic.TcCoe Idealize.ShloMosaic.ValueIdx Idealize.SL.Sem
open Idealize.ShloMosaic.Pipeline (Dat)

namespace Cert.KernelIdeal.Region5

variable (V : (c : Dev nD) → (b : Ref sig .tc) → Buf (Elt Ideal) ((c : Thread nD τ).loc b))

/-- The four input arrays as the call finds them, at their literal types. -/
abbrev inH (c : Dev nD) : FVec Ideal S50000x128 .f32 := V c main_v74
abbrev inW (c : Dev nD) : FVec Ideal S128x128 .f32 := V c main_v76
abbrev inS (c : Dev nD) : FVec Ideal S50000x1 .f32 := V c main_v32
abbrev inB (c : Dev nD) : FVec Ideal S1x128 .f32 := V c main_v79

theorem zeroOff : (![0, 0] : Fin 2 → Nat) = fun _ => 0 := funext fun a => by fin_cases a <;> rfl

/-- A `[5000, 1]` column broadcast to `[5000, 128]` reads, at `(p, q)`, the column's entry of row `p`. -/
theorem bcast_col (v : FVec Ideal S5000x1 .f32) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ => rfl
  | ⟨1, _⟩ => rfl

/-- A `[1, 128]` row broadcast to `[5000, 128]` reads, at `(p, q)`, the row's entry of column `q`. -/
theorem bcast_row (v : FVec Ideal S1x128 .f32) (p : Fin 5000) (q : Fin 128) :
    broadcastTo S5000x128 v broadcasts_S1x128_S5000x128 (ix2 p q) = v (ix2 (0 : Fin 1) q) := by
  refine broadcastTo_apply v broadcasts_S1x128_S5000x128 (ix2 p q) (ix2 (0 : Fin 1) q) fun ax => ?_
  match ax with
  | ⟨0, _⟩ => rfl
  | ⟨1, _⟩ => rfl

/-- The first stored value at `(p, q)`: row `p` of the feature block against column `q` of the weight matrix (the
    same-shape casts and the changes of float format are the identity; the accumulator is zero). -/
theorem pay1_apply (x0 : Vec Ideal S5000x128 .f32) (x1 : Vec Ideal S128x128 .f32) (p : Fin 5000) (q : Fin 128) :
    k5_pay1 (F := Ideal) x0 x1 (ix2 p q) = ∑ k : Fin 128, x0 (ix2 p k) * x1 (ix2 k q) := by
  unfold k5_pay1
  simp only [shapeCast_self]
  exact BlockDot.dot128_apply (truncf .bf16 x0 bitsLt_bf16_f32) (truncf .bf16 x1 bitsLt_bf16_f32) p q

/-- The second stored value at `(p, q)`: the node's scale times the first value, plus the bias row's entry. -/
theorem pay2_apply (x0 : Vec Ideal S5000x128 .f32) (x1 : Vec Ideal S128x128 .f32) (x2 : Vec Ideal S5000x1 .f32) (x3 : Vec Ideal S1x128 .f32)
    (p : Fin 5000) (q : Fin 128) :
    k5_pay2 (F := Ideal) x0 x1 x2 x3 (ix2 p q)
      = x2 (ix2 p (0 : Fin 1)) * (∑ k : Fin 128, x0 (ix2 p k) * x1 (ix2 k q)) + x3 (ix2 (0 : Fin 1) q) := by
  unfold k5_pay2
  simp only [shapeCast_self]
  rw [addf_apply, mulf_apply, bcast_col, bcast_row, pay1_apply]

/-- The grid has ten points. -/
theorem N_eq : cfg5.N = 10 := (by decide : grid5.N = 10)

/-- Where the windows are at point `t`: the two row-blocked inputs and both outputs at block row `t`, block column 0;
    the weight matrix and the bias row at their one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-- Row `p` of block `t` as a row of the whole array. -/
def row (t : Fin cfg5.N) (p : Fin 5000) : Fin 50000 :=
  ⟨t.val * 5000 + p.val, by have := lt_of_lt_of_eq t.isLt N_eq; have := p.isLt; omega⟩

/-- Entry `(p, k)` of the feature block at point `t` is entry `(5000 t + p, k)` of the feature array. -/
theorem emb0 (t : Fin cfg5.N) (p : Fin 5000) (k : Fin 128) : ((cfg5.win 0).blk t).view.emb (ix2 p k) = ix2 (row t p) k := by
  obtain ⟨e0, e1, -⟩ := idx_facts t
  funext a; apply Fin.ext
  match a with
  | ⟨0, _⟩ => show win5_0.index t (0 : Fin 2) * 5000 + 1 * p.val = t.val * 5000 + p.val; omega
  | ⟨1, _⟩ => show win5_0.index t (1 : Fin 2) * 128 + 1 * k.val = k.val; omega

/-- The weight matrix's block is the whole matrix. -/
theorem emb1 (t : Fin cfg5.N) (k : Fin 128) (q : Fin 128) : ((cfg5.win 1).blk t).view.emb (ix2 k q) = ix2 k q := by
  obtain ⟨-, -, e0, e1, -⟩ := idx_facts t
  funext a; apply Fin.ext
  match a with
  | ⟨0, _⟩ => show win5_1.index t (0 : Fin 2) * 128 + 1 * k.val = k.val; omega
  | ⟨1, _⟩ => show win5_1.index t (1 : Fin 2) * 128 + 1 * q.val = q.val; omega

/-- Entry `(p, 0)` of the scale block at point `t` is entry `(5000 t + p, 0)` of the scale column. -/
theorem emb2 (t : Fin cfg5.N) (p : Fin 5000) : ((cfg5.win 2).blk t).view.emb (ix2 p (0 : Fin 1)) = ix2 (row t p) (0 : Fin 1) := by
  obtain ⟨-, -, -, -, e0, e1, -⟩ := idx_facts t
  funext a; apply Fin.ext
  match a with
  | ⟨0, _⟩ => show win5_2.index t (0 : Fin 2) * 5000 + 1 * p.val = t.val * 5000 + p.val; omega
  | ⟨1, _⟩ => show win5_2.index t (1 : Fin 2) * 1 + 1 * 0 = 0; omega

/-- The bias row's block is the whole row. -/
theorem emb3 (t : Fin cfg5.N) (q : Fin 128) : ((cfg5.win 3).blk t).view.emb (ix2 (0 : Fin 1) q) = ix2 (0 : Fin 1) q := by
  obtain ⟨-, -, -, -, -, -, e0, e1, -⟩ := idx_facts t
  funext a; apply Fin.ext
  match a with
  | ⟨0, _⟩ => show win5_3.index t (0 : Fin 2) * 1 + 1 * 0 = 0; omega
  | ⟨1, _⟩ => show win5_3.index t (1 : Fin 2) * 128 + 1 * q.val = q.val; omega

/-- Entry `(p, q)` of either output block at point `t` is entry `(5000 t + p, q)` of its array. -/
theorem emb4 (t : Fin cfg5.N) (p : Fin 5000) (q : Fin 128) : ((cfg5.win 4).blk t).view.emb (ix2 p q) = ix2 (row t p) q := by
  obtain ⟨-, -, -, -, -, -, -, -, e0, e1, -⟩ := idx_facts t
  funext a; apply Fin.ext
  match a with
  | ⟨0, _⟩ => show win5_4.index t (0 : Fin 2) * 5000 + 1 * p.val = t.val * 5000 + p.val; omega
  | ⟨1, _⟩ => show win5_4.index t (1 : Fin 2) * 128 + 1 * q.val = q.val; omega
theorem emb5 (t : Fin cfg5.N) (p : Fin 5000) (q : Fin 128) : ((cfg5.win 5).blk t).view.emb (ix2 p q) = ix2 (row t p) q := by
  obtain ⟨-, -, -, -, -, -, -, -, -, -, e0, e1⟩ := idx_facts t
  funext a; apply Fin.ext
  match a with
  | ⟨0, _⟩ => show win5_5.index t (0 : Fin 2) * 5000 + 1 * p.val = t.val * 5000 + p.val; omega
  | ⟨1, _⟩ => show win5_5.index t (1 : Fin 2) * 128 + 1 * q.val = q.val; omega

/-- What point `t` writes back to the first output is block `t` of the dense rows of the whole arrays. -/
theorem flushed_eq4 (c : Dev nD) (t : Fin cfg5.N) :
    (dat5 V c).flushed 4 t = ((cfg5.win 4).blk t).view.read (Elt Ideal) (Cert.Gcn.dense (inH V c) (inW V c)) := by
  show (cfg5.win 4).cut (grid5.coords t) ((dat5 V c).after 4 t) = _
  rw [after5_4]
  unfold out5_4
  rw [View.canon_unit_zero zeroOff]
  simp only [View.ld_unit_zero (S := S5000x128) zeroOff, View.ld_unit_zero (S := S128x128) zeroOff]
  funext j
  obtain ⟨p, q, rfl⟩ : ∃ (p : Fin 5000) (q : Fin 128), j = ix2 p q := ⟨j 0, j 1, eq_ix2 j⟩
  refine (pay1_apply _ _ p q).trans ?_
  show ∑ k : Fin 128, inH V c (((cfg5.win 0).blk t).view.emb (ix2 p k)) * inW V c (((cfg5.win 1).blk t).view.emb (ix2 k q))
    = Cert.Gcn.dense (inH V c) (inW V c) (((cfg5.win 4).blk t).view.emb (ix2 p q))
  rw [emb4]
  show _ = ∑ k : Fin 128, inH V c (ix2 (row t p) k) * inW V c (ix2 k q)
  refine Finset.sum_congr rfl fun k _ => ?_
  rw [emb0, emb1]

/-- What point `t` writes back to the second output is block `t` of the nodes' own terms of the whole arrays. -/
theorem flushed_eq5 (c : Dev nD) (t : Fin cfg5.N) :
    (dat5 V c).flushed 5 t
      = ((cfg5.win 5).blk t).view.read (Elt Ideal) (Cert.Gcn.selfTerm (inH V c) (inW V c) (inS V c) (inB V c)) := by
  show (cfg5.win 5).cut (grid5.coords t) ((dat5 V c).after 5 t) = _
  rw [after5_5]
  unfold out5_5
  rw [View.canon_unit_zero zeroOff]
  simp only [View.ld_unit_zero (S := S5000x128) zeroOff, View.ld_unit_zero (S := S128x128) zeroOff,
    View.ld_unit_zero (S := S5000x1) zeroOff, View.ld_unit_zero (S := S1x128) zeroOff]
  funext j
  obtain ⟨p, q, rfl⟩ : ∃ (p : Fin 5000) (q : Fin 128), j = ix2 p q := ⟨j 0, j 1, eq_ix2 j⟩
  refine (pay2_apply _ _ _ _ p q).trans ?_
  show inS V c (((cfg5.win 2).blk t).view.emb (ix2 p (0 : Fin 1)))
      * (∑ k : Fin 128, inH V c (((cfg5.win 0).blk t).view.emb (ix2 p k)) * inW V c (((cfg5.win 1).blk t).view.emb (ix2 k q)))
      + inB V c (((cfg5.win 3).blk t).view.emb (ix2 (0 : Fin 1) q))
    = Cert.Gcn.selfTerm (inH V c) (inW V c) (inS V c) (inB V c) (((cfg5.win 5).blk t).view.emb (ix2 p q))
  rw [emb5, emb2, emb3]
  show _ = inS V c (ix2 (row t p) (0 : Fin 1)) * (∑ k : Fin 128, inH V c (ix2 (row t p) k) * inW V c (ix2 k q)) + inB V c (ix2 (0 : Fin 1) q)
  refine congrArg (fun z => inS V c (ix2 (row t p) (0 : Fin 1)) * z + inB V c (ix2 (0 : Fin 1) q)) ?_
  refine Finset.sum_congr rfl fun k _ => ?_
  rw [emb0, emb1]

/-- An index of the first output array is in point `t`'s block iff each coordinate is in the block's range on its axis. -/
theorem mem_blk4 (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v80_0).slice (win5_4.rect t)).set ↔ _
  rw [View.set_slice_whole, Rect.mem_set_unit]
  exact Iff.rfl

/-- The same for the second output array. -/
theorem mem_blk5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v80_1).slice (win5_5.rect t)).set ↔ _
  rw [View.set_slice_whole, Rect.mem_set_unit]
  exact Iff.rfl

/-- Every block row is some point's, for both outputs: the point number is the block row. -/
theorem idx_onto : ∀ r : Fin 10, ∃ t : Fin cfg5.N, win5_4.index t = ![r.val, 0] ∧ win5_5.index t = ![r.val, 0] :=
  (by decide +kernel : ∀ r : Fin 10, ∃ t : Fin grid5.N, win5_4.index t = ![r.val, 0] ∧ win5_5.index t = ![r.val, 0])

/-- The ten blocks tile the first output array: row `r` is in the block of point `r / 5000`. -/
theorem cover4 (i : S50000x128.Idx) : ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht, -⟩ := idx_onto ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk4]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- The ten blocks tile the second output array the same way. -/
theorem cover5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, -, ht⟩ := idx_onto ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- After the call the first output array holds the dense rows of the feature array as the call found it. -/
theorem arr_dense (c : Dev nD) : (dat5 V c).arrAt 4 cfg5.N = Cert.Gcn.dense (inH V c) (inW V c) :=
  (dat5 V c).arrAt_eq_of_cover 4 _ (fun t _ => flushed_eq4 V c t) cover4

/-- After the call the second output array holds the nodes' own terms: scale times dense row, plus the bias row. -/
theorem arr_self (c : Dev nD) : (dat5 V c).arrAt 5 cfg5.N = Cert.Gcn.selfTerm (inH V c) (inW V c) (inS V c) (inB V c) :=
  (dat5 V c).arrAt_eq_of_cover 5 _ (fun t _ => flushed_eq5 V c t) cover5

end Cert.KernelIdeal.Region5

end
-- ==== Proof.Region6.lean ====
/-
  The third combine call: ten blocks of 5000 node rows, each block the entrywise sum of the same block of the two
  input arrays. Block `t` of each of the three arrays is rows `5000 t … 5000 t + 4999`, all 128 columns, so what point
  `t` writes back is block `t` of the entrywise sum of the whole arrays, and the ten blocks tile the array: the
  output array ends holding `plus a b`.
-/
import proofs.«415000_j23407571763562_3_alg».proof.Proof.Gen.KernelIdeal.Frame
import proofs.«415000_j23407571763562_3_alg».proof.Proof.GcnSpec
import Idealize.ShloMosaic.Lib.Pipeline.Value
import Idealize.ShloMosaic.Lib.ValueIdx
import Idealize.ShloMosaic.PureOps.Ideal.Laws

set_option maxRecDepth 16384

noncomputable section

open scoped BigOperators
open Cert.KernelIdeal Cert.KernelIdeal.Gen
open Idealize.ShloMosaic Idealize.ShloMosaic.TcCoe Idealize.ShloMosaic.ValueIdx Idealize.SL.Sem
open Idealize.ShloMosaic.Pipeline (Dat)

namespace Cert.KernelIdeal.Region6

variable (V : (c : Dev nD) → (b : Ref sig .tc) → Buf (Elt Ideal) ((c : Thread nD τ).loc b))

/-- The two input arrays as the call finds them, at their literal type. -/
abbrev inA (c : Dev nD) : FVec Ideal S50000x128 .f32 := V c main_v93
abbrev inB (c : Dev nD) : FVec Ideal S50000x128 .f32 := V c main_v80_1

theorem zeroOff : (![0, 0] : Fin 2 → Nat) = fun _ => 0 := funext fun a => by fin_cases a <;> rfl

/-- The body's value: the two loaded blocks added entry by entry (the two same-shape casts are the identity). -/
theorem pay_eq (x0 x1 : Vec Ideal S5000x128 .f32) : k6_pay1 (F := Ideal) x0 x1 = fun j => x0 j + x1 j := by
  unfold k6_pay1
  simp only [shapeCast_self]
  rfl

/-- The three windows move together: at point `t` each is at block row `t`, block column 0. -/
theorem idx_facts : ∀ t : Fin cfg6.N, win6_0.index t (0 : Fin 2) = win6_2.index t (0 : Fin 2)
    ∧ win6_0.index t (1 : Fin 2) = win6_2.index t (1 : Fin 2)
    ∧ win6_1.index t (0 : Fin 2) = win6_2.index t (0 : Fin 2)
    ∧ win6_1.index t (1 : Fin 2) = win6_2.index t (1 : Fin 2)
    ∧ win6_2.index t (0 : Fin 2) = t.val ∧ win6_2.index t (1 : Fin 2) = 0 :=
  (by decide +kernel : ∀ t : Fin grid6.N, _)

/-- What point `t` writes back is block `t` of the entrywise sum of the two whole arrays. -/
theorem flushed_eq (c : Dev nD) (t : Fin cfg6.N) :
    (dat6 V c).flushed 2 t = ((cfg6.win 2).blk t).view.read (Elt Ideal) (Cert.Gcn.plus (inA V c) (inB V c)) := by
  show (cfg6.win 2).cut (grid6.coords t) ((dat6 V c).after 2 t) = _
  rw [after6_2]
  unfold out6_2
  rw [View.canon_unit_zero zeroOff]
  simp only [View.ld_unit_zero (S := S5000x128) zeroOff]
  rw [pay_eq]
  obtain ⟨e0, e1, e2, e3, e4, e5⟩ := idx_facts t
  funext j
  show inA V c (((cfg6.win 0).blk t).view.emb j) + inB V c (((cfg6.win 1).blk t).view.emb j)
    = inA V c (((cfg6.win 2).blk t).view.emb j) + inB V c (((cfg6.win 2).blk t).view.emb j)
  have h0 : ((cfg6.win 0).blk t).view.emb j = ((cfg6.win 2).blk t).view.emb j := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * (j 1).val = win6_2.index t (1 : Fin 2) * 128 + 1 * (j 1).val; omega
  have h1 : ((cfg6.win 1).blk t).view.emb j = ((cfg6.win 2).blk t).view.emb j := by
    funext a; apply Fin.ext
    match a with
    | ⟨0, _⟩ => show win6_1.index t (0 : Fin 2) * 5000 + 1 * (j 0).val = win6_2.index t (0 : Fin 2) * 5000 + 1 * (j 0).val; omega
    | ⟨1, _⟩ => show win6_1.index t (1 : Fin 2) * 128 + 1 * (j 1).val = win6_2.index t (1 : Fin 2) * 128 + 1 * (j 1).val; omega
  rw [h0, h1]

/-- An index of the array is in point `t`'s block iff each coordinate is in the block's range on its axis. -/
theorem mem_blk (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v94).slice (win6_2.rect t)).set ↔ _
  rw [View.set_slice_whole, Rect.mem_set_unit]
  exact Iff.rfl

/-- Every block row is some point's: the point number is the block row. -/
theorem idx_onto : ∀ q : Fin 10, ∃ t : Fin cfg6.N, win6_2.index t = ![q.val, 0] :=
  (by decide +kernel : ∀ q : Fin 10, ∃ t : Fin grid6.N, win6_2.index t = ![q.val, 0])

/-- The ten blocks tile the array: row `r` is in the block of point `r / 5000`. -/
theorem cover (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ := idx_onto ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- After the call the output array holds the entrywise sum of the two input arrays as the call found them. -/
theorem arr (c : Dev nD) : (dat6 V c).arrAt 2 cfg6.N = Cert.Gcn.plus (inA V c) (inB V c) :=
  (dat6 V c).arrAt_eq_of_cover 2 _ (fun t _ => flushed_eq V c t) cover

end Cert.KernelIdeal.Region6

end
-- ==== Proof.BlockDot64.lean ====
/-
  A block's matrix product read at coordinates. At the extended reals a `tpu.matmul` into the zero accumulator is the
  plain sum over the contracted axis: entry (p, q) of the product of a [5000, 128] block with a [128, e] matrix is
  `∑ k, x (p, k) · w (k, q)` ( 128, the hidden layers' width=here e = 64, the output layer's width= 128, the hidden layers' width). The operand formats play no
  part: a change of float format is the identity here.
-/
import proofs.«415000_j23407571763562_3_alg».proof.KernelIdeal
import proofs.«415000_j23407571763562_3_alg».proof.Proof.Gen.KernelIdeal
import Idealize.ShloMosaic.Lib.ValueIdx
import Idealize.ShloMosaic.PureOps.Ideal.Laws

noncomputable section

open scoped BigOperators
open Cert.KernelIdeal Cert.KernelIdeal.Gen
open Idealize.ShloMosaic Idealize.ShloMosaic.TcCoe Idealize.ShloMosaic.ValueIdx

namespace Cert.KernelIdeal.BlockDot

theorem lhs64_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs64_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs64_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs64_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- [5000, 128] × [128, 64] into zero, at (p, q): the sum over the contracted axis. -/
theorem dot64_apply {φ₁ φ₂ : FTy} (x : FVec Ideal S5000x128 φ₁) (w : FVec Ideal S128x64 φ₂) (p : Fin 5000) (q : Fin 64) :
    matmul dot_S5000x128_S128x64_S5000x64_1_0_0_1_n_n none x w (constant S5000x64 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs64_0 _ _
    | ⟨1, _⟩ => exact (lhs64_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs64_0 _ _).trans hk
    | ⟨1, _⟩ => exact rhs64_1 _ _)
  rw [el, er]

end Cert.KernelIdeal.BlockDot

end
-- ==== Proof.Region7.lean ====
/-
  The output layer's call: ten blocks of 5000 node rows. At point `t` the body reads block row `t` of the hidden
  features, the whole [128, 64] weight matrix and the whole bias row, and writes block row `t` of the output: entry
  (p, q) of the block is row p of the block against column q of the weight matrix, plus the bias at q. Row p of block
  `t` is row `5000 t + p` of the array, so what point `t` writes back is block `t` of the layer's value on the
  whole arrays, and the ten blocks tile the output array: it ends holding `linOut h W b`.
-/
import proofs.«415000_j23407571763562_3_alg».proof.Proof.Gen.KernelIdeal.Frame
import proofs.«415000_j23407571763562_3_alg».proof.Proof.GcnSpec
import proofs.«415000_j23407571763562_3_alg».proof.Proof.BlockDot64
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Cert.KernelIdeal Cert.KernelIdeal.Gen
open Idealize.ShloMosaic Idealize.ShloMosaic.TcCoe Idealize.ShloMosaic.ValueIdx Idealize.SL.Sem
open Idealize.ShloMosaic.Pipeline (Dat)

namespace Cert.KernelIdeal.Region7

variable (V : (c : Dev nD) → (b : Ref sig .tc) → Buf (Elt Ideal) ((c : Thread nD τ).loc b))

/-- The three input arrays as the call finds them, at their literal types. -/
abbrev inH (c : Dev nD) : FVec Ideal S50000x128 .f32 := V c main_v94
abbrev inW (c : Dev nD) : FVec Ideal S128x64 .f32 := V c main_arg6
abbrev inB (c : Dev nD) : FVec Ideal S1x64 .f32 := V c main_v95

theorem zeroOff : (![0, 0] : Fin 2 → Nat) = fun _ => 0 := funext fun a => by fin_cases a <;> rfl

/-- The body's value at block coordinates (p, q): row p of the block against column q of the weight matrix, plus the
    bias row's entry q (a change of float format and a same-shape cast are the identity). -/
theorem pay_apply (x0 : Vec Ideal S5000x128 .f32) (x1 : Vec Ideal S128x64 .f32) (x2 : Vec Ideal S1x64 .f32) (p : Fin 5000) (q : Fin 64) :
    k7_pay1 (F := Ideal) x0 x1 x2 (ix2 p q) = (∑ k : Fin 128, x0 (ix2 p k) * x1 (ix2 k q)) + x2 (ix2 0 q) := by
  unfold k7_pay1
  rw [addf_apply, BlockDot.dot64_apply, shapeCast_self, shapeCast_self, broadcastTo_1b_ab_apply]
  rfl

/-- Where the windows sit at point `t`: the row block of the input rows and of the output is block row `t`, block
    column 0; the weight matrix and the bias row are whole (block 0 on both axes). -/
theorem idx_facts : ∀ t : Fin cfg7.N, win7_0.index t (0 : Fin 2) = win7_3.index t (0 : Fin 2)
    ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point `t` writes back is block `t` of the layer's value on the whole arrays. -/
theorem flushed_eq (c : Dev nD) (t : Fin cfg7.N) :
    (dat7 V c).flushed 3 t = ((cfg7.win 3).blk t).view.read (Elt Ideal) (Cert.Gcn.linOut (inH V c) (inW V c) (inB V c)) := by
  show (cfg7.win 3).cut (grid7.coords t) ((dat7 V c).after 3 t) = _
  rw [after7_3]
  unfold out7_3
  rw [View.canon_unit_zero zeroOff]
  simp only [View.ld_unit_zero (S := S5000x128) zeroOff, View.ld_unit_zero (S := S128x64) zeroOff, View.ld_unit_zero (S := S1x64) zeroOff]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  refine (pay_apply _ _ _ p q).trans ?_
  show (∑ k : Fin 128, inH V c (((cfg7.win 0).blk t).view.emb (ix2 p k)) * inW V c (((cfg7.win 1).blk t).view.emb (ix2 k q)))
        + inB V c (((cfg7.win 2).blk t).view.emb (ix2 (0 : Fin 1) q))
    = (∑ k : Fin 128, inH V c (ix2 (((cfg7.win 3).blk t).view.emb (ix2 p q) (0 : Fin 2)) k) * inW V c (ix2 k (((cfg7.win 3).blk t).view.emb (ix2 p q) (1 : Fin 2))))
        + inB V c (ix2 (0 : Fin 1) (((cfg7.win 3).blk t).view.emb (ix2 p q) (1 : Fin 2)))
  have h0 : ∀ k : Fin 128, ((cfg7.win 0).blk t).view.emb (ix2 p k) = ix2 (((cfg7.win 3).blk t).view.emb (ix2 p q) (0 : Fin 2)) k := by
    intro k; funext a; apply Fin.ext
    match a with
    | ⟨0, _⟩ => show win7_0.index t (0 : Fin 2) * 5000 + 1 * p.val = win7_3.index t (0 : Fin 2) * 5000 + 1 * p.val; omega
    | ⟨1, _⟩ => show win7_0.index t (1 : Fin 2) * 128 + 1 * k.val = k.val; omega
  have h1 : ∀ k : Fin 128, ((cfg7.win 1).blk t).view.emb (ix2 k q) = ix2 k (((cfg7.win 3).blk t).view.emb (ix2 p q) (1 : Fin 2)) := by
    intro k; funext a; apply Fin.ext
    match a with
    | ⟨0, _⟩ => show win7_1.index t (0 : Fin 2) * 128 + 1 * k.val = k.val; omega
    | ⟨1, _⟩ => show win7_1.index t (1 : Fin 2) * 64 + 1 * q.val = win7_3.index t (1 : Fin 2) * 64 + 1 * q.val; omega
  have h2 : ((cfg7.win 2).blk t).view.emb (ix2 (0 : Fin 1) q) = ix2 (0 : Fin 1) (((cfg7.win 3).blk t).view.emb (ix2 p q) (1 : Fin 2)) := by
    funext a; apply Fin.ext
    match a with
    | ⟨0, _⟩ => show win7_2.index t (0 : Fin 2) * 1 + 1 * (0 : Fin 1).val = (0 : Fin 1).val; omega
    | ⟨1, _⟩ => show win7_2.index t (1 : Fin 2) * 64 + 1 * q.val = win7_3.index t (1 : Fin 2) * 64 + 1 * q.val; omega
  refine congrArg₂ (· + ·) (Finset.sum_congr rfl fun k _ => ?_) (congrArg (inB V c) h2)
  exact congrArg₂ (· * ·) (congrArg (inH V c) (h0 k)) (congrArg (inW V c) (h1 k))

/-- An index of the output array is in point `t`'s block iff each coordinate is in the block's range on its axis. -/
theorem mem_blk (t : Fin cfg7.N) (i : S50000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v96).slice (win7_3.rect t)).set ↔ _
  rw [View.set_slice_whole, Rect.mem_set_unit]
  exact Iff.rfl

/-- Every block row is some point's: the point number is the block row. -/
theorem idx_onto : ∀ r : Fin 10, ∃ t : Fin cfg7.N, win7_3.index t = ![r.val, 0] :=
  (by decide +kernel : ∀ r : Fin 10, ∃ t : Fin grid7.N, win7_3.index t = ![r.val, 0])

/-- The ten blocks tile the output array: row `r` is in the block of point `r / 5000`. -/
theorem cover (i : S50000x64.Idx) : ∃ t : Fin cfg7.N, (cfg7.win 3).flush t = true ∧ i ∈ ((cfg7.win 3).blk t).view.set := by
  have hi0 : (i 0).val < 50000 := (i 0).isLt
  have hi1 : (i 1).val < 64 := (i 1).isLt
  obtain ⟨t, ht⟩ := idx_onto ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 64 ≤ (i 1).val ∧ (i 1).val < win7_3.index t (1 : Fin 2) * 64 + 64; omega

/-- After the call the output array holds the output layer's value of the three input arrays as the call found them. -/
theorem arr (c : Dev nD) : (dat7 V c).arrAt 3 cfg7.N = Cert.Gcn.linOut (inH V c) (inW V c) (inB V c) :=
  (dat7 V c).arrAt_eq_of_cover 3 _ (fun t _ => flushed_eq V c t) cover

end Cert.KernelIdeal.Region7

end
-- ==== Proof.Chain.lean ====
/-
  From the last boundary's contents back to the arguments: the result buffer after the last pallas_call is the
  network's function of the eight argument arrays.

  The program is sixteen segments: eight stretches of host operations, each followed by a pallas_call. The buffer
  contents at the boundaries are a fold; this module walks it once. After stretch 0 the edge lists, the edge scale, the
  node scale and the first bias row hold the reference's own stage terms of the edge argument (the same operations, read
  off the fold); each pallas_call leaves in its output arrays the whole-array function of its input arrays (the
  per-call modules); each later stretch slices that layer's weights and bias, or gathers, scales and scatter-adds the
  dense rows (`agg`, never opened); and a buffer nobody writes in between holds what it held. Layer by layer this
  gives h₀, h₁, h₂, h₃ and at the end the output layer of h₃.
-/
import proofs.«415000_j23407571763562_3_alg».proof.Proof.Gen.KernelIdeal.Frame
import proofs.«415000_j23407571763562_3_alg».proof.Proof.Keep
import proofs.«415000_j23407571763562_3_alg».proof.Proof.GcnModel
import proofs.«415000_j23407571763562_3_alg».proof.Proof.Region0
import proofs.«415000_j23407571763562_3_alg».proof.Proof.Region1
import proofs.«415000_j23407571763562_3_alg».proof.Proof.Region2
import proofs.«415000_j23407571763562_3_alg».proof.Proof.Region3
import proofs.«415000_j23407571763562_3_alg».proof.Proof.Region4
import proofs.«415000_j23407571763562_3_alg».proof.Proof.Region5
import proofs.«415000_j23407571763562_3_alg».proof.Proof.Region6
import proofs.«415000_j23407571763562_3_alg».proof.Proof.Region7
import Idealize.ShloMosaic.Lib.StableHlo.Run

set_option maxRecDepth 16384

noncomputable section

open Cert.KernelIdeal Cert.KernelIdeal.Gen Cert.KernelIdeal.Keep
open Idealize.ShloMosaic Idealize.ShloMosaic.TcCoe Idealize.SL.Sem Idealize.ShloMosaic.StableHlo
open Idealize.ShloMosaic.Pipeline (Dat)
open Cert.ReferenceIdeal.Read (val_main_v1 val_main_v3 val_main_v30 val_main_v32 val_main_v39 val_main_v58 val_main_v63 val_main_v82 val_main_v87 val_main_v106)
open Cert.GcnModel (row128 row64 agg layer)

namespace Cert.KernelIdeal.Chain

variable (m : (ℓ : Loc nD τ sig) → Buf (Elt Ideal) ℓ) (ρ : Dev nD → PrngReg)

/-! ## The arguments, at their literal types, and the layers' values -/

abbrev aX (c : Dev nD) : FVec Ideal S50000x128 .f32 := m ((c : Thread nD τ).loc main_arg0)
abbrev aE (c : Dev nD) : IVec S2x800000 32 := m ((c : Thread nD τ).loc main_arg1)
abbrev aW1 (c : Dev nD) : FVec Ideal S128x128 .f32 := m ((c : Thread nD τ).loc main_arg2)
abbrev aB1 (c : Dev nD) : FVec Ideal S128 .f32 := m ((c : Thread nD τ).loc main_arg3)
abbrev aWc (c : Dev nD) : FVec Ideal S3x128x128 .f32 := m ((c : Thread nD τ).loc main_arg4)
abbrev aBc (c : Dev nD) : FVec Ideal S3x128 .f32 := m ((c : Thread nD τ).loc main_arg5)
abbrev aW2 (c : Dev nD) : FVec Ideal S128x64 .f32 := m ((c : Thread nD τ).loc main_arg6)
abbrev aB2 (c : Dev nD) : FVec Ideal S64 .f32 := m ((c : Thread nD τ).loc main_arg7)

/-- The three layers' weight slices and bias rows, and the node scale. -/
abbrev wc0 (c : Dev nD) : FVec Ideal S128x128 .f32 := val_main_v39 (F := Ideal) (aWc m c)
abbrev wc1 (c : Dev nD) : FVec Ideal S128x128 .f32 := val_main_v63 (F := Ideal) (aWc m c)
abbrev wc2 (c : Dev nD) : FVec Ideal S128x128 .f32 := val_main_v87 (F := Ideal) (aWc m c)
abbrev br0 (c : Dev nD) : FVec Ideal S1x128 .f32 := row128 (val_main_v58 (F := Ideal) (aBc m c))
abbrev br1 (c : Dev nD) : FVec Ideal S1x128 .f32 := row128 (val_main_v82 (F := Ideal) (aBc m c))
abbrev br2 (c : Dev nD) : FVec Ideal S1x128 .f32 := row128 (val_main_v106 (F := Ideal) (aBc m c))
abbrev sn (c : Dev nD) : FVec Ideal S50000x1 .f32 := val_main_v32 (F := Ideal) (aE m c)

/-- The features after the input layer and after each convolution layer. -/
abbrev h0 (c : Dev nD) : FVec Ideal S50000x128 .f32 := Cert.Gcn.linRelu (aX m c) (aW1 m c) (row128 (aB1 m c))
abbrev h1 (c : Dev nD) : FVec Ideal S50000x128 .f32 := layer (aE m c) (wc0 m c) (br0 m c) (h0 m c)
abbrev h2 (c : Dev nD) : FVec Ideal S50000x128 .f32 := layer (aE m c) (wc1 m c) (br1 m c) (h1 m c)
abbrev h3 (c : Dev nD) : FVec Ideal S50000x128 .f32 := layer (aE m c) (wc2 m c) (br2 m c) (h2 m c)

/-! ## After stretch 0: the graph's quantities and the first layer's operands -/

theorem s1_x (c : Dev nD) : W1 m ρ c (Proc.devRef .tc main_arg0) = aX m c := (host0 m ρ c main_arg0 (by decide)).trans rfl
theorem s1_w (c : Dev nD) : W1 m ρ c (Proc.devRef .tc main_arg2) = aW1 m c := (host0 m ρ c main_arg2 (by decide)).trans rfl
theorem s1_wc (c : Dev nD) : W1 m ρ c (Proc.devRef .tc main_arg4) = aWc m c := (host0 m ρ c main_arg4 (by decide)).trans rfl
theorem s1_bc (c : Dev nD) : W1 m ρ c (Proc.devRef .tc main_arg5) = aBc m c := (host0 m ρ c main_arg5 (by decide)).trans rfl
theorem s1_row (c : Dev nD) : W1 m ρ c (Proc.devRef .tc main_v33) = row128 (aB1 m c) := by
  show StableHlo.after hostOps0 (W0 m ρ c) (Proc.devRef .tc main_v33) = _
  after_results_simp
  rfl
theorem s1_src (c : Dev nD) : W1 m ρ c (Proc.devRef .tc main_v1) = val_main_v1 (F := Ideal) (aE m c) := by
  show StableHlo.after hostOps0 (W0 m ρ c) (Proc.devRef .tc main_v1) = _
  after_results_simp
  rfl
theorem s1_dst (c : Dev nD) : W1 m ρ c (Proc.devRef .tc main_v3) = val_main_v3 (F := Ideal) (aE m c) := by
  show StableHlo.after hostOps0 (W0 m ρ c) (Proc.devRef .tc main_v3) = _
  after_results_simp
  rfl
set_option maxHeartbeats 1000000 in
theorem s1_nrm (c : Dev nD) : W1 m ρ c (Proc.devRef .tc main_v30) = val_main_v30 (F := Ideal) (aE m c) := by
  show StableHlo.after hostOps0 (W0 m ρ c) (Proc.devRef .tc main_v30) = _
  after_results_simp
  rfl
set_option maxHeartbeats 1000000 in
theorem s1_sn (c : Dev nD) : W1 m ρ c (Proc.devRef .tc main_v32) = sn m c := by
  show StableHlo.after hostOps0 (W0 m ρ c) (Proc.devRef .tc main_v32) = _
  after_results_simp
  rfl

/-! ## The input layer (region 0), then the first convolution layer (stretch 1, region 1, stretch 2, region 2) -/

theorem s2_h (c : Dev nD) : W2 m ρ c (Proc.devRef .tc main_v34) = h0 m c := by
  refine (W2_arr m ρ c 3).trans ((Region0.arr (V1 m ρ) c).trans ?_)
  have e0 : Region0.inX (V1 m ρ) c = aX m c := s1_x m ρ c
  have e1 : Region0.inW (V1 m ρ) c = aW1 m c := s1_w m ρ c
  have e2 : Region0.inB (V1 m ρ) c = row128 (aB1 m c) := s1_row m ρ c
  rw [e0, e1, e2]

theorem s2_wc (c : Dev nD) : W2 m ρ c (Proc.devRef .tc main_arg4) = aWc m c := (W2_of_ne m ρ c main_arg4 (by decide)).trans (s1_wc m ρ c)
theorem s2_bc (c : Dev nD) : W2 m ρ c (Proc.devRef .tc main_arg5) = aBc m c := (W2_of_ne m ρ c main_arg5 (by decide)).trans (s1_bc m ρ c)

theorem s3_w (c : Dev nD) : W3 m ρ c (Proc.devRef .tc main_v36) = wc0 m c := by
  show StableHlo.after hostOps1 (W2 m ρ c) (Proc.devRef .tc main_v36) = _
  after_results_simp
  rw [s2_wc]
  rfl
theorem s3_b (c : Dev nD) : W3 m ρ c (Proc.devRef .tc main_v39) = br0 m c := by
  show StableHlo.after hostOps1 (W2 m ρ c) (Proc.devRef .tc main_v39) = _
  after_results_simp
  rw [s2_bc]
  rfl
theorem s3_h (c : Dev nD) : W3 m ρ c (Proc.devRef .tc main_v34) = h0 m c := (host1 m ρ c main_v34 (by decide)).trans (s2_h m ρ c)
theorem s3_sn (c : Dev nD) : W3 m ρ c (Proc.devRef .tc main_v32) = sn m c :=
  (host1 m ρ c main_v32 (by decide)).trans ((W2_of_ne m ρ c main_v32 (by decide)).trans (s1_sn m ρ c))

theorem s4_hw (c : Dev nD) : W4 m ρ c (Proc.devRef .tc main_v40_0) = Cert.Gcn.dense (h0 m c) (wc0 m c) := by
  refine (W4_arr m ρ c 4).trans ((Region1.arr_dense (V3 m ρ) c).trans ?_)
  have e0 : Region1.inH (V3 m ρ) c = h0 m c := s3_h m ρ c
  have e1 : Region1.inW (V3 m ρ) c = wc0 m c := s3_w m ρ c
  rw [e0, e1]
theorem s4_self (c : Dev nD) : W4 m ρ c (Proc.devRef .tc main_v40_1) = Cert.Gcn.selfTerm (h0 m c) (wc0 m c) (sn m c) (br0 m c) := by
  refine (W4_arr m ρ c 5).trans ((Region1.arr_self (V3 m ρ) c).trans ?_)
  have e0 : Region1.inH (V3 m ρ) c = h0 m c := s3_h m ρ c
  have e1 : Region1.inW (V3 m ρ) c = wc0 m c := s3_w m ρ c
  have e2 : Region1.inS (V3 m ρ) c = sn m c := s3_sn m ρ c
  have e3 : Region1.inB (V3 m ρ) c = br0 m c := s3_b m ρ c
  rw [e0, e1, e2, e3]
/-- The node scale is an input of region 1, which leaves its input arrays as it found them. -/
theorem s4_sn (c : Dev nD) : W4 m ρ c (Proc.devRef .tc main_v32) = sn m c :=
  (W4_arr m ρ c 2).trans (((dat1 (V3 m ρ) c).arrAt_in 2 rfl _).trans ((A_eq1 (V3 m ρ) c 2).trans (s3_sn m ρ c)))
theorem s4_src (c : Dev nD) : W4 m ρ c (Proc.devRef .tc main_v1) = val_main_v1 (F := Ideal) (aE m c) :=
  (W4_of_ne m ρ c main_v1 (by decide)).trans ((host1 m ρ c main_v1 (by decide)).trans ((W2_of_ne m ρ c main_v1 (by decide)).trans (s1_src m ρ c)))
theorem s4_dst (c : Dev nD) : W4 m ρ c (Proc.devRef .tc main_v3) = val_main_v3 (F := Ideal) (aE m c) :=
  (W4_of_ne m ρ c main_v3 (by decide)).trans ((host1 m ρ c main_v3 (by decide)).trans ((W2_of_ne m ρ c main_v3 (by decide)).trans (s1_dst m ρ c)))
theorem s4_nrm (c : Dev nD) : W4 m ρ c (Proc.devRef .tc main_v30) = val_main_v30 (F := Ideal) (aE m c) :=
  (W4_of_ne m ρ c main_v30 (by decide)).trans ((host1 m ρ c main_v30 (by decide)).trans ((W2_of_ne m ρ c main_v30 (by decide)).trans (s1_nrm m ρ c)))
theorem s4_wc (c : Dev nD) : W4 m ρ c (Proc.devRef .tc main_arg4) = aWc m c :=
  (W4_of_ne m ρ c main_arg4 (by decide)).trans ((host1 m ρ c main_arg4 (by decide)).trans (s2_wc m ρ c))
theorem s4_bc (c : Dev nD) : W4 m ρ c (Proc.devRef .tc main_arg5) = aBc m c :=
  (W4_of_ne m ρ c main_arg5 (by decide)).trans ((host1 m ρ c main_arg5 (by decide)).trans (s2_bc m ρ c))

set_option maxHeartbeats 1000000 in
/-- Stretch 2 gathers the dense rows at the edges' sources, scales them and scatter-adds them at the destinations. -/
theorem s5_agg (c : Dev nD) : W5 m ρ c (Proc.devRef .tc main_v53) = agg (aE m c) (Cert.Gcn.dense (h0 m c) (wc0 m c)) := by
  show StableHlo.after hostOps2 (W4 m ρ c) (Proc.devRef .tc main_v53) = _
  after_results_simp
  rw [s4_hw, s4_src, s4_dst, s4_nrm]
  rfl
theorem s5_self (c : Dev nD) : W5 m ρ c (Proc.devRef .tc main_v40_1) = Cert.Gcn.selfTerm (h0 m c) (wc0 m c) (sn m c) (br0 m c) :=
  (host2 m ρ c main_v40_1 (by decide)).trans (s4_self m ρ c)
theorem s6_h (c : Dev nD) : W6 m ρ c (Proc.devRef .tc main_v54) = h1 m c := by
  refine (W6_arr m ρ c 2).trans ((Region2.arr (V5 m ρ) c).trans ?_)
  have e0 : Region2.inA (V5 m ρ) c = agg (aE m c) (Cert.Gcn.dense (h0 m c) (wc0 m c)) := s5_agg m ρ c
  have e1 : Region2.inB (V5 m ρ) c = Cert.Gcn.selfTerm (h0 m c) (wc0 m c) (sn m c) (br0 m c) := s5_self m ρ c
  rw [e0, e1]
  rfl

/-! ## The second convolution layer (stretch 3, region 3, stretch 4, region 4) -/

theorem s6_wc (c : Dev nD) : W6 m ρ c (Proc.devRef .tc main_arg4) = aWc m c :=
  (W6_of_ne m ρ c main_arg4 (by decide)).trans ((host2 m ρ c main_arg4 (by decide)).trans (s4_wc m ρ c))
theorem s6_bc (c : Dev nD) : W6 m ρ c (Proc.devRef .tc main_arg5) = aBc m c :=
  (W6_of_ne m ρ c main_arg5 (by decide)).trans ((host2 m ρ c main_arg5 (by decide)).trans (s4_bc m ρ c))
theorem s7_w (c : Dev nD) : W7 m ρ c (Proc.devRef .tc main_v56) = wc1 m c := by
  show StableHlo.after hostOps3 (W6 m ρ c) (Proc.devRef .tc main_v56) = _
  after_results_simp
  rw [s6_wc]
  rfl
theorem s7_b (c : Dev nD) : W7 m ρ c (Proc.devRef .tc main_v59) = br1 m c := by
  show StableHlo.after hostOps3 (W6 m ρ c) (Proc.devRef .tc main_v59) = _
  after_results_simp
  rw [s6_bc]
  rfl
theorem s7_h (c : Dev nD) : W7 m ρ c (Proc.devRef .tc main_v54) = h1 m c := (host3 m ρ c main_v54 (by decide)).trans (s6_h m ρ c)
theorem s7_sn (c : Dev nD) : W7 m ρ c (Proc.devRef .tc main_v32) = sn m c :=
  (host3 m ρ c main_v32 (by decide)).trans ((W6_of_ne m ρ c main_v32 (by decide)).trans ((host2 m ρ c main_v32 (by decide)).trans (s4_sn m ρ c)))
theorem s8_hw (c : Dev nD) : W8 m ρ c (Proc.devRef .tc main_v60_0) = Cert.Gcn.dense (h1 m c) (wc1 m c) := by
  refine (W8_arr m ρ c 4).trans ((Region3.arr_dense (V7 m ρ) c).trans ?_)
  have e0 : Region3.inH (V7 m ρ) c = h1 m c := s7_h m ρ c
  have e1 : Region3.inW (V7 m ρ) c = wc1 m c := s7_w m ρ c
  rw [e0, e1]
theorem s8_self (c : Dev nD) : W8 m ρ c (Proc.devRef .tc main_v60_1) = Cert.Gcn.selfTerm (h1 m c) (wc1 m c) (sn m c) (br1 m c) := by
  refine (W8_arr m ρ c 5).trans ((Region3.arr_self (V7 m ρ) c).trans ?_)
  have e0 : Region3.inH (V7 m ρ) c = h1 m c := s7_h m ρ c
  have e1 : Region3.inW (V7 m ρ) c = wc1 m c := s7_w m ρ c
  have e2 : Region3.inS (V7 m ρ) c = sn m c := s7_sn m ρ c
  have e3 : Region3.inB (V7 m ρ) c = br1 m c := s7_b m ρ c
  rw [e0, e1, e2, e3]
theorem s8_sn (c : Dev nD) : W8 m ρ c (Proc.devRef .tc main_v32) = sn m c :=
  (W8_arr m ρ c 2).trans (((dat3 (V7 m ρ) c).arrAt_in 2 rfl _).trans ((A_eq3 (V7 m ρ) c 2).trans (s7_sn m ρ c)))
theorem s8_src (c : Dev nD) : W8 m ρ c (Proc.devRef .tc main_v1) = val_main_v1 (F := Ideal) (aE m c) :=
  (W8_of_ne m ρ c main_v1 (by decide)).trans ((host3 m ρ c main_v1 (by decide)).trans ((W6_of_ne m ρ c main_v1 (by decide)).trans ((host2 m ρ c main_v1 (by decide)).trans (s4_src m ρ c))))
theorem s8_dst (c : Dev nD) : W8 m ρ c (Proc.devRef .tc main_v3) = val_main_v3 (F := Ideal) (aE m c) :=
  (W8_of_ne m ρ c main_v3 (by decide)).trans ((host3 m ρ c main_v3 (by decide)).trans ((W6_of_ne m ρ c main_v3 (by decide)).trans ((host2 m ρ c main_v3 (by decide)).trans (s4_dst m ρ c))))
theorem s8_nrm (c : Dev nD) : W8 m ρ c (Proc.devRef .tc main_v30) = val_main_v30 (F := Ideal) (aE m c) :=
  (W8_of_ne m ρ c main_v30 (by decide)).trans ((host3 m ρ c main_v30 (by decide)).trans ((W6_of_ne m ρ c main_v30 (by decide)).trans ((host2 m ρ c main_v30 (by decide)).trans (s4_nrm m ρ c))))
theorem s8_wc (c : Dev nD) : W8 m ρ c (Proc.devRef .tc main_arg4) = aWc m c :=
  (W8_of_ne m ρ c main_arg4 (by decide)).trans ((host3 m ρ c main_arg4 (by decide)).trans (s6_wc m ρ c))
theorem s8_bc (c : Dev nD) : W8 m ρ c (Proc.devRef .tc main_arg5) = aBc m c :=
  (W8_of_ne m ρ c main_arg5 (by decide)).trans ((host3 m ρ c main_arg5 (by decide)).trans (s6_bc m ρ c))

set_option maxHeartbeats 1000000 in
theorem s9_agg (c : Dev nD) : W9 m ρ c (Proc.devRef .tc main_v73) = agg (aE m c) (Cert.Gcn.dense (h1 m c) (wc1 m c)) := by
  show StableHlo.after hostOps4 (W8 m ρ c) (Proc.devRef .tc main_v73) = _
  after_results_simp
  rw [s8_hw, s8_src, s8_dst, s8_nrm]
  rfl
theorem s9_self (c : Dev nD) : W9 m ρ c (Proc.devRef .tc main_v60_1) = Cert.Gcn.selfTerm (h1 m c) (wc1 m c) (sn m c) (br1 m c) :=
  (host4 m ρ c main_v60_1 (by decide)).trans (s8_self m ρ c)
theorem s10_h (c : Dev nD) : W10 m ρ c (Proc.devRef .tc main_v74) = h2 m c := by
  refine (W10_arr m ρ c 2).trans ((Region4.arr (V9 m ρ) c).trans ?_)
  have e0 : Region4.inA (V9 m ρ) c = agg (aE m c) (Cert.Gcn.dense (h1 m c) (wc1 m c)) := s9_agg m ρ c
  have e1 : Region4.inB (V9 m ρ) c = Cert.Gcn.selfTerm (h1 m c) (wc1 m c) (sn m c) (br1 m c) := s9_self m ρ c
  rw [e0, e1]
  rfl

/-! ## The third convolution layer (stretch 5, region 5, stretch 6, region 6) -/

theorem s10_wc (c : Dev nD) : W10 m ρ c (Proc.devRef .tc main_arg4) = aWc m c :=
  (W10_of_ne m ρ c main_arg4 (by decide)).trans ((host4 m ρ c main_arg4 (by decide)).trans (s8_wc m ρ c))
theorem s10_bc (c : Dev nD) : W10 m ρ c (Proc.devRef .tc main_arg5) = aBc m c :=
  (W10_of_ne m ρ c main_arg5 (by decide)).trans ((host4 m ρ c main_arg5 (by decide)).trans (s8_bc m ρ c))
theorem s11_w (c : Dev nD) : W11 m ρ c (Proc.devRef .tc main_v76) = wc2 m c := by
  show StableHlo.after hostOps5 (W10 m ρ c) (Proc.devRef .tc main_v76) = _
  after_results_simp
  rw [s10_wc]
  rfl
theorem s11_b (c : Dev nD) : W11 m ρ c (Proc.devRef .tc main_v79) = br2 m c := by
  show StableHlo.after hostOps5 (W10 m ρ c) (Proc.devRef .tc main_v79) = _
  after_results_simp
  rw [s10_bc]
  rfl
theorem s11_h (c : Dev nD) : W11 m ρ c (Proc.devRef .tc main_v74) = h2 m c := (host5 m ρ c main_v74 (by decide)).trans (s10_h m ρ c)
theorem s11_sn (c : Dev nD) : W11 m ρ c (Proc.devRef .tc main_v32) = sn m c :=
  (host5 m ρ c main_v32 (by decide)).trans ((W10_of_ne m ρ c main_v32 (by decide)).trans ((host4 m ρ c main_v32 (by decide)).trans (s8_sn m ρ c)))
theorem s12_hw (c : Dev nD) : W12 m ρ c (Proc.devRef .tc main_v80_0) = Cert.Gcn.dense (h2 m c) (wc2 m c) := by
  refine (W12_arr m ρ c 4).trans ((Region5.arr_dense (V11 m ρ) c).trans ?_)
  have e0 : Region5.inH (V11 m ρ) c = h2 m c := s11_h m ρ c
  have e1 : Region5.inW (V11 m ρ) c = wc2 m c := s11_w m ρ c
  rw [e0, e1]
theorem s12_self (c : Dev nD) : W12 m ρ c (Proc.devRef .tc main_v80_1) = Cert.Gcn.selfTerm (h2 m c) (wc2 m c) (sn m c) (br2 m c) := by
  refine (W12_arr m ρ c 5).trans ((Region5.arr_self (V11 m ρ) c).trans ?_)
  have e0 : Region5.inH (V11 m ρ) c = h2 m c := s11_h m ρ c
  have e1 : Region5.inW (V11 m ρ) c = wc2 m c := s11_w m ρ c
  have e2 : Region5.inS (V11 m ρ) c = sn m c := s11_sn m ρ c
  have e3 : Region5.inB (V11 m ρ) c = br2 m c := s11_b m ρ c
  rw [e0, e1, e2, e3]
theorem s12_src (c : Dev nD) : W12 m ρ c (Proc.devRef .tc main_v1) = val_main_v1 (F := Ideal) (aE m c) :=
  (W12_of_ne m ρ c main_v1 (by decide)).trans ((host5 m ρ c main_v1 (by decide)).trans ((W10_of_ne m ρ c main_v1 (by decide)).trans ((host4 m ρ c main_v1 (by decide)).trans (s8_src m ρ c))))
theorem s12_dst (c : Dev nD) : W12 m ρ c (Proc.devRef .tc main_v3) = val_main_v3 (F := Ideal) (aE m c) :=
  (W12_of_ne m ρ c main_v3 (by decide)).trans ((host5 m ρ c main_v3 (by decide)).trans ((W10_of_ne m ρ c main_v3 (by decide)).trans ((host4 m ρ c main_v3 (by decide)).trans (s8_dst m ρ c))))
theorem s12_nrm (c : Dev nD) : W12 m ρ c (Proc.devRef .tc main_v30) = val_main_v30 (F := Ideal) (aE m c) :=
  (W12_of_ne m ρ c main_v30 (by decide)).trans ((host5 m ρ c main_v30 (by decide)).trans ((W10_of_ne m ρ c main_v30 (by decide)).trans ((host4 m ρ c main_v30 (by decide)).trans (s8_nrm m ρ c))))

set_option maxHeartbeats 1000000 in
theorem s13_agg (c : Dev nD) : W13 m ρ c (Proc.devRef .tc main_v93) = agg (aE m c) (Cert.Gcn.dense (h2 m c) (wc2 m c)) := by
  show StableHlo.after hostOps6 (W12 m ρ c) (Proc.devRef .tc main_v93) = _
  after_results_simp
  rw [s12_hw, s12_src, s12_dst, s12_nrm]
  rfl
theorem s13_self (c : Dev nD) : W13 m ρ c (Proc.devRef .tc main_v80_1) = Cert.Gcn.selfTerm (h2 m c) (wc2 m c) (sn m c) (br2 m c) :=
  (host6 m ρ c main_v80_1 (by decide)).trans (s12_self m ρ c)
theorem s14_h (c : Dev nD) : W14 m ρ c (Proc.devRef .tc main_v94) = h3 m c := by
  refine (W14_arr m ρ c 2).trans ((Region6.arr (V13 m ρ) c).trans ?_)
  have e0 : Region6.inA (V13 m ρ) c = agg (aE m c) (Cert.Gcn.dense (h2 m c) (wc2 m c)) := s13_agg m ρ c
  have e1 : Region6.inB (V13 m ρ) c = Cert.Gcn.selfTerm (h2 m c) (wc2 m c) (sn m c) (br2 m c) := s13_self m ρ c
  rw [e0, e1]
  rfl

/-! ## The output layer (stretch 7, region 7) -/

/-- The last two arguments are read late; nothing after their readers writes them, so they are read back from the end. -/
theorem s14_b2 (c : Dev nD) : W14 m ρ c (Proc.devRef .tc main_arg7) = aB2 m c :=
  (host7 m ρ c main_arg7 (by decide)).symm.trans ((W16_of_ne m ρ c main_arg7 (by decide)).symm.trans (W16_main_arg7 m ρ c))
theorem s15_b (c : Dev nD) : W15 m ρ c (Proc.devRef .tc main_v95) = row64 (aB2 m c) := by
  show StableHlo.after hostOps7 (W14 m ρ c) (Proc.devRef .tc main_v95) = _
  after_results_simp
  rw [s14_b2]
  rfl
theorem s15_h (c : Dev nD) : W15 m ρ c (Proc.devRef .tc main_v94) = h3 m c := (host7 m ρ c main_v94 (by decide)).trans (s14_h m ρ c)
theorem s15_w (c : Dev nD) : W15 m ρ c (Proc.devRef .tc main_arg6) = aW2 m c :=
  ((W16_arr m ρ c 1).trans (((dat7 (V15 m ρ) c).arrAt_in 1 rfl _).trans (A_eq7 (V15 m ρ) c 1))).symm.trans (W16_main_arg6 m ρ c)

/-- THE RESULT: after the last call the result buffer holds the network's function of the eight arguments. -/
theorem result (c : Dev nD) : W16 m ρ c (Proc.devRef .tc main_v96)
    = Cert.GcnModel.out (aX m c) (aE m c) (aW1 m c) (aB1 m c) (aWc m c) (aBc m c) (aW2 m c) (aB2 m c) := by
  refine (W16_arr m ρ c 3).trans ((Region7.arr (V15 m ρ) c).trans ?_)
  have e0 : Region7.inH (V15 m ρ) c = h3 m c := s15_h m ρ c
  have e1 : Region7.inW (V15 m ρ) c = aW2 m c := s15_w m ρ c
  have e2 : Region7.inB (V15 m ρ) c = row64 (aB2 m c) := s15_b m ρ c
  rw [e0, e1, e2]
  rfl

end Cert.KernelIdeal.Chain

end
-- ==== Proof.RefValue.lean ====
/-
  The reference program's result is the network's function of its eight arguments.

  Every stage of the reference is read at an index. A dense stage is the spec's row-by-column sum; the bias vector,
  broadcast to one row and then to all rows, is the spec's bias row read at `(0, q)`; the node scale column, broadcast
  along the row, is the column read at `(p, 0)`. The neighbour aggregation is the same term in the reference and in
  the model (it is never opened). The reference adds a layer's bias row last, the model keeps it inside the node's own
  term: the two agree by associativity of addition on the extended reals.
-/
import proofs.«415000_j23407571763562_3_alg».proof.Proof.Gen.ReferenceIdeal.Read
import proofs.«415000_j23407571763562_3_alg».proof.Proof.GcnSpec
import proofs.«415000_j23407571763562_3_alg».proof.Proof.GcnModel
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## Indices -/

/-- The left index of a 128-feature contraction at `i`, step `k`: row `i 0`, column `k`. -/
theorem lidx33 (i : S50000x128.Idx) (k : Fin 128) : lidx_main_v33 i k = ix2 (i 0) k :=
  funext fun a => Fin.ext (by match a with | ⟨0, _⟩ => rfl | ⟨1, _⟩ => rfl)

/-- The right index of that contraction: row `k`, column `i 1`. -/
theorem ridx33 (i : S50000x128.Idx) (k : Fin 128) : ridx_main_v33 i k = ix2 k (i 1) :=
  funext fun a => Fin.ext (by match a with | ⟨0, _⟩ => rfl | ⟨1, _⟩ => rfl)

/-- The same two indices for the contraction into 64 output features. -/
theorem lidx110 (i : S50000x64.Idx) (k : Fin 128) : lidx_main_v110 i k = ix2 (i 0) k :=
  funext fun a => Fin.ext (by match a with | ⟨0, _⟩ => rfl | ⟨1, _⟩ => rfl)

theorem ridx110 (i : S50000x64.Idx) (k : Fin 128) : ridx_main_v110 i k = ix2 k (i 1) :=
  funext fun a => Fin.ext (by match a with | ⟨0, _⟩ => rfl | ⟨1, _⟩ => rfl)

/-! ## A bias vector as one row -/

/-- A 128-vector cast to one row, read at `(0, q)`, is the vector at `q`: the two row-major positions are both `q`. -/
theorem row128_apply (b : FVec Ideal S128 .f32) (q : Fin 128) : Cert.GcnModel.row128 b (ix2 0 q) = b (ix1 q) := by
  unfold Cert.GcnModel.row128
  exact shapeCast_apply b Cert.GcnModel.casts_row128 (ix2 0 q) (ix1 q)
    (by rw [Shape.rowMajor_val_one, Shape.rowMajor_val_two]; show q.val = 0 * 128 + q.val; omega)

/-- The same for a 64-vector. -/
theorem row64_apply (b : FVec Ideal S64 .f32) (q : Fin 64) : Cert.GcnModel.row64 b (ix2 0 q) = b (ix1 q) := by
  unfold Cert.GcnModel.row64
  exact shapeCast_apply b Cert.GcnModel.casts_row64 (ix2 0 q) (ix1 q)
    (by rw [Shape.rowMajor_val_one, Shape.rowMajor_val_two]; show q.val = 0 * 64 + q.val; omega)

/-- A 128-vector broadcast to one row and then to every row, read at `i`, is the bias row at `(0, i 1)`. -/
theorem biasRows128 (b : FVec Ideal S128 .f32) (i : S50000x128.Idx) :
    val_main_v35 (F := Ideal) b i = Cert.GcnModel.row128 b (ix2 0 (i 1)) := by
  rw [val_main_v35_apply, val_main_v34_apply]
  refine Eq.trans ?_ (row128_apply b (i 1)).symm
  exact congrArg b (funext fun a => Fin.ext (by match a with | ⟨0, _⟩ => rfl))

/-- A 64-vector broadcast to one row and then to every row, read at `i`, is the bias row at `(0, i 1)`. -/
theorem biasRows64 (b : FVec Ideal S64 .f32) (i : S50000x64.Idx) :
    val_main_v112 (F := Ideal) b i = Cert.GcnModel.row64 b (ix2 0 (i 1)) := by
  rw [val_main_v112_apply, val_main_v111_apply]
  refine Eq.trans ?_ (row64_apply b (i 1)).symm
  exact congrArg b (funext fun a => Fin.ext (by match a with | ⟨0, _⟩ => rfl))

/-! ## Dense stages -/

/-- A 128 → 128 contraction of any two operands is the spec's dense layer. -/
theorem dense_eq (h : FVec Ideal S50000x128 .f32) (W : FVec Ideal S128x128 .f32) :
    val_main_v33 (F := Ideal) h W = Cert.Gcn.dense h W := by
  funext i
  rw [val_main_v33_apply]
  show _ = ∑ k : Fin 128, h (ix2 (i 0) k) * W (ix2 k (i 1))
  exact Finset.sum_congr rfl fun k _ => by rw [lidx33, ridx33]; rfl

/-- The dense layer read at an index is the row-by-column sum. -/
theorem dense_apply (h : FVec Ideal S50000x128 .f32) (W : FVec Ideal S128x128 .f32) (i : S50000x128.Idx) :
    Cert.Gcn.dense h W i = Cert.Gcn.rowDot h W (i 0) (i 1) := rfl

/-! ## The input layer -/

/-- Dense, bias row, positive part: the reference's first seven stages are the spec's input layer. -/
theorem input_eq (x0 : FVec Ideal S50000x128 .f32) (x2 : FVec Ideal S128x128 .f32) (x3 : FVec Ideal S128 .f32) :
    val_main_v37 (F := Ideal) x0 x2 x3 = Cert.Gcn.linRelu x0 x2 (Cert.GcnModel.row128 x3) := by
  funext i
  rw [val_main_v37_apply, val_main_v36_apply, val_main_call0_v0_apply, val_main_call0_cst_apply, biasRows128, dense_eq,
    dense_apply, Ideal.maximumf_def, Ideal.addf_def]
  show max _ (Ideal.ofBits .f32 0x00000000#32) = max _ 0
  rw [Ideal.ofBits_zero_f32]

/-! ## One convolution layer -/

/-- The node scale column broadcast along the row reads the column at `(i 0, 0)`. -/
theorem idx54 (i : S50000x128.Idx) : idx_main_v54 i = ix2 (i 0) 0 :=
  funext fun a => Fin.ext (by match a with | ⟨0, _⟩ => rfl | ⟨1, _⟩ => rfl)

/-- One convolution layer as the reference writes it, for any weights `W`, bias vector `b` and input features `h`:
    the aggregated dense rows, plus the dense rows scaled by the node column, plus the bias rows LAST. -/
def refLayer (e : IVec S2x800000 32) (W : FVec Ideal S128x128 .f32) (b : FVec Ideal S128 .f32) (h : FVec Ideal S50000x128 .f32) :
    FVec Ideal S50000x128 .f32 :=
  addf (addf (Cert.GcnModel.agg e (val_main_v33 (F := Ideal) h W)) (mulf (val_main_v54 (F := Ideal) e) (val_main_v33 (F := Ideal) h W)))
    (val_main_v35 (F := Ideal) b)

/-- The reference's layer is the model's: the dense stage is the spec's, the scale column is read at `(p, 0)`, the bias
    rows at `(0, q)`, and the bias moves inside the node's own term by associativity of addition. -/
theorem refLayer_eq (e : IVec S2x800000 32) (W : FVec Ideal S128x128 .f32) (b : FVec Ideal S128 .f32) (h : FVec Ideal S50000x128 .f32) :
    refLayer e W b h = Cert.GcnModel.layer e W (Cert.GcnModel.row128 b) h := by
  funext i
  unfold refLayer Cert.GcnModel.layer
  rw [dense_eq, addf_apply, addf_apply, mulf_apply, val_main_v54_apply, biasRows128, dense_apply, idx54]
  exact Cert.Gcn.plus_selfTerm (Cert.GcnModel.agg e (Cert.Gcn.dense h W)) h W (val_main_v32 (F := Ideal) e) (Cert.GcnModel.row128 b) i

/-! ## The three layers of the program are that layer -/

/-- Later copies of the source-index, edge-scale, zero and destination-index stages are the first layer's terms. -/
theorem v70_eq (x1 : IVec S2x800000 32) : val_main_v70 (F := Ideal) x1 = val_main_v46 (F := Ideal) x1 := rfl
theorem v73_eq (x1 : IVec S2x800000 32) : val_main_v73 (F := Ideal) x1 = val_main_v49 (F := Ideal) x1 := rfl
theorem v75_eq : val_main_v75 (F := Ideal) = val_main_v51 (F := Ideal) := rfl
theorem v76_eq (x1 : IVec S2x800000 32) : val_main_v76 (F := Ideal) x1 = val_main_v52 (F := Ideal) x1 := rfl
theorem v78_eq (x1 : IVec S2x800000 32) : val_main_v78 (F := Ideal) x1 = val_main_v54 (F := Ideal) x1 := rfl
theorem v94_eq (x1 : IVec S2x800000 32) : val_main_v94 (F := Ideal) x1 = val_main_v46 (F := Ideal) x1 := rfl
theorem v97_eq (x1 : IVec S2x800000 32) : val_main_v97 (F := Ideal) x1 = val_main_v49 (F := Ideal) x1 := rfl
theorem v99_eq : val_main_v99 (F := Ideal) = val_main_v51 (F := Ideal) := rfl
theorem v100_eq (x1 : IVec S2x800000 32) : val_main_v100 (F := Ideal) x1 = val_main_v52 (F := Ideal) x1 := rfl
theorem v102_eq (x1 : IVec S2x800000 32) : val_main_v102 (F := Ideal) x1 = val_main_v54 (F := Ideal) x1 := rfl

/-- The first convolution layer: weights slice 0, bias slice 0, on the input layer's features. -/
theorem layer1_eq (x0 : FVec Ideal S50000x128 .f32) (x1 : IVec S2x800000 32) (x2 : FVec Ideal S128x128 .f32) (x3 : FVec Ideal S128 .f32)
    (x4 : FVec Ideal S3x128x128 .f32) (x5 : FVec Ideal S3x128 .f32) :
    val_main_v61 (F := Ideal) x0 x1 x2 x3 x4 x5
      = refLayer x1 (val_main_v39 (F := Ideal) x4) (val_main_v58 (F := Ideal) x5) (val_main_v37 (F := Ideal) x0 x2 x3) := by
  unfold val_main_v61 val_main_v56 val_main_v53 val_main_v50 val_main_v47 val_main_v55 val_main_v40 val_main_v60 val_main_v59
  rfl

/-- The second: slices 1, on the first layer's features. -/
theorem layer2_eq (x0 : FVec Ideal S50000x128 .f32) (x1 : IVec S2x800000 32) (x2 : FVec Ideal S128x128 .f32) (x3 : FVec Ideal S128 .f32)
    (x4 : FVec Ideal S3x128x128 .f32) (x5 : FVec Ideal S3x128 .f32) :
    val_main_v85 (F := Ideal) x0 x1 x2 x3 x4 x5
      = refLayer x1 (val_main_v63 (F := Ideal) x4) (val_main_v82 (F := Ideal) x5) (val_main_v61 (F := Ideal) x0 x1 x2 x3 x4 x5) := by
  unfold val_main_v85 val_main_v80 val_main_v77 val_main_v74 val_main_v71 val_main_v79 val_main_v64 val_main_v84 val_main_v83
  rw [v70_eq, v73_eq, v75_eq, v76_eq, v78_eq]
  rfl

/-- The third: slices 2, on the second layer's features. -/
theorem layer3_eq (x0 : FVec Ideal S50000x128 .f32) (x1 : IVec S2x800000 32) (x2 : FVec Ideal S128x128 .f32) (x3 : FVec Ideal S128 .f32)
    (x4 : FVec Ideal S3x128x128 .f32) (x5 : FVec Ideal S3x128 .f32) :
    val_main_v109 (F := Ideal) x0 x1 x2 x3 x4 x5
      = refLayer x1 (val_main_v87 (F := Ideal) x4) (val_main_v106 (F := Ideal) x5) (val_main_v85 (F := Ideal) x0 x1 x2 x3 x4 x5) := by
  unfold val_main_v109 val_main_v104 val_main_v101 val_main_v98 val_main_v95 val_main_v103 val_main_v88 val_main_v108 val_main_v107
  rw [v94_eq, v97_eq, v99_eq, v100_eq, v102_eq]
  rfl

/-! ## The output layer and the whole network -/

/-- The three convolution layers, in the model's terms. -/
theorem layers_eq (x0 : FVec Ideal S50000x128 .f32) (x1 : IVec S2x800000 32) (x2 : FVec Ideal S128x128 .f32) (x3 : FVec Ideal S128 .f32)
    (x4 : FVec Ideal S3x128x128 .f32) (x5 : FVec Ideal S3x128 .f32) :
    val_main_v109 (F := Ideal) x0 x1 x2 x3 x4 x5
      = Cert.GcnModel.layer x1 (val_main_v87 (F := Ideal) x4) (Cert.GcnModel.row128 (val_main_v106 (F := Ideal) x5))
          (Cert.GcnModel.layer x1 (val_main_v63 (F := Ideal) x4) (Cert.GcnModel.row128 (val_main_v82 (F := Ideal) x5))
            (Cert.GcnModel.layer x1 (val_main_v39 (F := Ideal) x4) (Cert.GcnModel.row128 (val_main_v58 (F := Ideal) x5))
              (Cert.Gcn.linRelu x0 x2 (Cert.GcnModel.row128 x3)))) := by
  rw [layer3_eq, refLayer_eq, layer2_eq, refLayer_eq, layer1_eq, refLayer_eq, input_eq]

/-- The output layer on whatever the last convolution layer's features are: a 128 → 64 contraction, which is the spec's
    row-by-column sum, plus the bias rows, which are the bias row at `(0, q)`. -/
theorem out_of_last (x0 : FVec Ideal S50000x128 .f32) (x1 : IVec S2x800000 32) (x2 : FVec Ideal S128x128 .f32) (x3 : FVec Ideal S128 .f32)
    (x4 : FVec Ideal S3x128x128 .f32) (x5 : FVec Ideal S3x128 .f32) (x6 : FVec Ideal S128x64 .f32) (x7 : FVec Ideal S64 .f32)
    (L : FVec Ideal S50000x128 .f32) (hL : val_main_v109 (F := Ideal) x0 x1 x2 x3 x4 x5 = L) :
    val_main_v113 (F := Ideal) x0 x1 x2 x3 x4 x5 x6 x7 = Cert.Gcn.linOut L x6 (Cert.GcnModel.row64 x7) := by
  funext i
  rw [val_main_v113_apply, val_main_v110_apply, biasRows64, hL, Ideal.addf_def]
  show _ = (∑ k : Fin 128, L (ix2 (i 0) k) * x6 (ix2 k (i 1))) + Cert.GcnModel.row64 x7 (ix2 0 (i 1))
  congr 1
  exact Finset.sum_congr rfl fun k _ => by rw [lidx110, ridx110]; rfl

/-- The reference's last stage, as a function of the eight arguments, is the network. -/
theorem result_eq (x0 : FVec Ideal S50000x128 .f32) (x1 : IVec S2x800000 32) (x2 : FVec Ideal S128x128 .f32) (x3 : FVec Ideal S128 .f32)
    (x4 : FVec Ideal S3x128x128 .f32) (x5 : FVec Ideal S3x128 .f32) (x6 : FVec Ideal S128x64 .f32) (x7 : FVec Ideal S64 .f32) :
    val_main_v113 (F := Ideal) x0 x1 x2 x3 x4 x5 x6 x7 = Cert.GcnModel.out x0 x1 x2 x3 x4 x5 x6 x7 := by
  unfold Cert.GcnModel.out
  exact out_of_last x0 x1 x2 x3 x4 x5 x6 x7 _ (layers_eq x0 x1 x2 x3 x4 x5)

end Cert.ReferenceIdeal.RefValue

end
-- ==== Proof.lean ====
/-
  The certificate: a three-layer graph convolution written as eight pallas_calls among host operations is, at the
  extended reals, the jnp reference.

  Both programs compute, from the node features `x`, the edge list and the weights,
    h₀ = max (x · W₁ + b₁, 0),   h_{l+1} = agg (h_l · W_l) + s · (h_l · W_l) + c_l  (l = 0, 1, 2),   out = h₃ · W₂ + b₂,
  with `agg` the neighbour aggregation (gather at the edges' sources, scale by the edge factor, scatter-add at the
  destinations) and `s` the node factor; the gathers and scatters are host operations in both programs and are never
  opened. The kernel tiles the 50000 node rows in ten blocks of 5000 and computes, per layer, the dense rows and the
  node's own term `s · (h W) + c` in one call and adds the aggregate in another, so it groups a layer as
  `agg + (s · hW + c)` where the reference has `(agg + s · hW) + c`: equal because addition on the extended reals is
  associative (no finiteness is used, and the precondition is never opened). Truncation to bf16 before the matrix
  product is the identity at this instance, and a matrix product into a zero accumulator is the reference's
  `dot_general`: the same sum over the 128 contracted features.

  The frames of the two kernel programs are the generated ones; the reference's is its generated run with the result
  dropped. For the value: the kernel's run names the result buffer at the last boundary's contents (KernelRun), those
  contents are walked back to the arguments (Chain, over the per-call modules Region0 … Region7), the reference's run
  ends at its last stage, which is the same function of the arguments (RefValue), and the arguments agree.
-/
import proofs.«415000_j23407571763562_3_alg».proof.Defs
import proofs.«415000_j23407571763562_3_alg».proof.Proof.Gen.Kernel
import proofs.«415000_j23407571763562_3_alg».proof.Proof.Gen.Kernel.Skeleton
import proofs.«415000_j23407571763562_3_alg».proof.Proof.Gen.Kernel.Launch
import proofs.«415000_j23407571763562_3_alg».proof.Proof.Gen.Kernel.Points
import proofs.«415000_j23407571763562_3_alg».proof.Proof.Gen.Kernel.Frame
import proofs.«415000_j23407571763562_3_alg».proof.Proof.Gen.KernelIdeal
import proofs.«415000_j23407571763562_3_alg».proof.Proof.Gen.KernelIdeal.Skeleton
import proofs.«415000_j23407571763562_3_alg».proof.Proof.Gen.KernelIdeal.Launch
import proofs.«415000_j23407571763562_3_alg».proof.Proof.Gen.KernelIdeal.Points
import proofs.«415000_j23407571763562_3_alg».proof.Proof.Gen.KernelIdeal.Frame
import proofs.«415000_j23407571763562_3_alg».proof.Proof.Gen.ReferenceIdeal
import proofs.«415000_j23407571763562_3_alg».proof.Proof.Gen.ReferenceIdeal.Run
import proofs.«415000_j23407571763562_3_alg».proof.Proof.Gen.ReferenceIdeal.Read
import proofs.«415000_j23407571763562_3_alg».proof.Proof.Gen.Pre_finite_inputs
import proofs.«415000_j23407571763562_3_alg».proof.Proof.KernelRun
import proofs.«415000_j23407571763562_3_alg».proof.Proof.Chain
import proofs.«415000_j23407571763562_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the network's function of the arguments they were launched with, and
    the two launches agree on the arguments. -/
theorem algebraic : Cert.algebraic_KernelIdeal_ReferenceIdeal := by
  intro m ρ m' ρ' _ hagree
  refine ⟨fun c => Cert.GcnModel.out (Cert.KernelIdeal.Chain.aX m c) (Cert.KernelIdeal.Chain.aE m c) (Cert.KernelIdeal.Chain.aW1 m c)
      (Cert.KernelIdeal.Chain.aB1 m c) (Cert.KernelIdeal.Chain.aWc m c) (Cert.KernelIdeal.Chain.aBc m c) (Cert.KernelIdeal.Chain.aW2 m c)
      (Cert.KernelIdeal.Chain.aB2 m c), ?_, ?_⟩
  · exact (θ_run Cert.KernelIdeal.defs _ _).mono
      (fun r h c => ⟨(h c).1.trans (Cert.KernelIdeal.Chain.result m ρ c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v113_eq, Cert.ReferenceIdeal.RefValue.result_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
